-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S1025 : Shape := ⟨1, ![1025]⟩
abbrev S1024 : Shape := ⟨1, ![1024]⟩
abbrev S_ : Shape := ⟨0, ![]⟩

class Facts : Prop where
  bcast_S_S1025 : S_.BroadcastsInDim S1025 (![] : Fin 0 → Fin S1025.rank)
  reducesTo_S1025_S_d0 : S1025.ReducesTo [0] S_
  h_S_ : 0 < S_.numel
  bcast_S_S1024 : S_.BroadcastsInDim S1024 (![] : Fin 0 → Fin S1024.rank)
  reducesTo_S1024_S_d0 : S1024.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_v28 : IVec S_ 1) (main_v31 : IVec S_ 1) : IVec S_ 1 :=
  let main_v32 : IVec S_ 1 := andi main_v28 main_v31
  main_v32

def fn_part1 {F : FTy → Type} [FloatOps F] (main_arg1 : IVec S500000 32) (main_arg2 : IVec S500000 32) (main_v12 : IVec S_ 1) (main_v15 : IVec S_ 1) : IVec S_ 1 :=
  let main_v16 : IVec S_ 1 := andi main_v12 main_v15
  let main_c_6 : IVec S_ 32 := constantI S_ 32 0#32
  let main_v17 : IVec S500000 32 := broadcastInDim S500000 ![] bcast_S_S500000 main_c_6
  let main_v18 : IVec S500000 1 := cmpi .sge main_arg1 main_v17
  let main_c_7 : IVec S_ 1 := constantI S_ 1 1#1
  let main_v19 : IVec S_ 1 := (fun x v => Host.reduce IntOp.andi x v reducesTo_S500000_S_d0 h_S_) main_v18 main_c_7
  let main_v20 : IVec S_ 1 := andi main_v16 main_v19
  let main_c_8 : IVec S_ 32 := constantI S_ 32 4096#32
  let main_v21 : IVec S500000 32 := broadcastInDim S500000 ![] bcast_S_S500000 main_c_8
  let main_v22 : IVec S500000 1 := cmpi .slt main_arg1 main_v21
  let main_c_9 : IVec S_ 1 := constantI S_ 1 1#1
  let main_v23 : IVec S_ 1 := (fun x v => Host.reduce IntOp.andi x v reducesTo_S500000_S_d0 h_S_) main_v22 main_c_9
  let main_v24 : IVec S_ 1 := andi main_v20 main_v23
  let main_c_10 : IVec S_ 32 := constantI S_ 32 0#32
  let main_v25 : IVec S500000 32 := broadcastInDim S500000 ![] bcast_S_S500000 main_c_10
  let main_v26 : IVec S500000 1 := cmpi .sge main_arg2 main_v25
  let main_c_11 : IVec S_ 1 := constantI S_ 1 1#1
  let main_v27 : IVec S_ 1 := (fun x v => Host.reduce IntOp.andi x v reducesTo_S500000_S_d0 h_S_) main_v26 main_c_11
  let main_v28 : IVec S_ 1 := andi main_v24 main_v27
  let main_c_12 : IVec S_ 32 := constantI S_ 32 16#32
  let main_v29 : IVec S500000 32 := broadcastInDim S500000 ![] bcast_S_S500000 main_c_12
  let main_v30 : IVec S500000 1 := cmpi .slt main_arg2 main_v29
  let main_c_13 : IVec S_ 1 := constantI S_ 1 1#1
  let main_v31 : IVec S_ 1 := (fun x v => Host.reduce IntOp.andi x v reducesTo_S500000_S_d0 h_S_) main_v30 main_c_13
  fn_part2 (F := F) main_v28 main_v31

def fn {F : FTy → Type} [FloatOps F] (main_arg0 : IVec S500000 32) (main_arg1 : IVec S500000 32) (main_arg2 : IVec S500000 32) (main_arg3 : FVec F S1025 .f32) (main_arg4 : FVec F S1024 .f32) : IVec S_ 1 :=
  let main_v0 : FVec F S1025 .f32 := Host.absf main_arg3
  let main_cst : FVec F S_ .f32 := constant S_ .f32 0x7F800000#32
  let main_v1 : FVec F S1025 .f32 := broadcastInDim S1025 ![] bcast_S_S1025 main_cst
  let main_v2 : IVec S1025 1 := cmpf .olt main_v0 main_v1
  let main_c : IVec S_ 1 := constantI S_ 1 1#1
  let main_v3 : IVec S_ 1 := (fun x v => Host.reduce IntOp.andi x v reducesTo_S1025_S_d0 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_c_2 : IVec S_ 32 := constantI S_ 32 0#32
  let main_v9 : IVec S500000 32 := broadcastInDim S500000 ![] bcast_S_S500000 main_c_2
  let main_v10 : IVec S500000 1 := cmpi .sge main_arg0 main_v9
  let main_c_3 : IVec S_ 1 := constantI S_ 1 1#1
  let main_v11 : IVec S_ 1 := (fun x v => Host.reduce IntOp.andi x v reducesTo_S500000_S_d0 h_S_) main_v10 main_c_3
  let main_v12 : IVec S_ 1 := andi main_v8 main_v11
  let main_c_4 : IVec S_ 32 := constantI S_ 32 1024#32
  let main_v13 : IVec S500000 32 := broadcastInDim S500000 ![] bcast_S_S500000 main_c_4
  let main_v14 : IVec S500000 1 := cmpi .slt main_arg0 main_v13
  let main_c_5 : IVec S_ 1 := constantI S_ 1 1#1
  let main_v15 : IVec S_ 1 := (fun x v => Host.reduce IntOp.andi x v reducesTo_S500000_S_d0 h_S_) main_v14 main_c_5
  fn_part1 (F := F) main_arg1 main_arg2 main_v12 main_v15
-- ==== Kernel.lean ====
abbrev S500000 : Shape := ⟨1, ![500000]⟩
abbrev S1025 : Shape := ⟨1, ![1025]⟩
abbrev S1024 : Shape := ⟨1, ![1024]⟩
abbrev S_ : Shape := ⟨0, ![]⟩
abbrev S65536 : Shape := ⟨1, ![65536]⟩
abbrev S500000x1 : Shape := ⟨2, ![500000, 1]⟩
abbrev S65536x1 : Shape := ⟨2, ![65536, 1]⟩
abbrev S16x4096 : Shape := ⟨2, ![16, 4096]⟩
abbrev S1x1024x1 : Shape := ⟨3, ![1, 1024, 1]⟩
abbrev S16x1024x4096 : Shape := ⟨3, ![16, 1024, 4096]⟩
abbrev S16x128 : Shape := ⟨2, ![16, 128]⟩
abbrev S16x1024x128 : Shape := ⟨3, ![16, 1024, 128]⟩
abbrev S16x1x128 : Shape := ⟨3, ![16, 1, 128]⟩

abbrev nBuf : Space → Nat
  | .hbm => 39
  | .vmem => 5
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .i32⟩
  | .hbm, ⟨3, _⟩ => ⟨S1025, .f32⟩
  | .hbm, ⟨4, _⟩ => ⟨S1024, .f32⟩
  | .hbm, ⟨5, _⟩ => ⟨S_, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S65536, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536, .f32⟩
  | .hbm, ⟨36, _⟩ => ⟨S16x4096, .f32⟩
  | .hbm, ⟨37, _⟩ => ⟨S1x1024x1, .f32⟩
  | .hbm, ⟨38, _⟩ => ⟨S16x1024x4096, .f32⟩
  | .local _ .vmem, ⟨0, _⟩ => ⟨S16x128, .f32⟩
  | .local _ .vmem, ⟨1, _⟩ => ⟨S16x128, .f32⟩
  | .local _ .vmem, ⟨2, _⟩ => ⟨S1x1024x1, .f32⟩
  | .local _ .vmem, ⟨3, _⟩ => ⟨S16x1024x128, .f32⟩
  | .local _ .vmem, ⟨4, _⟩ => ⟨S16x1024x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S500000 : S_.BroadcastsInDim S500000 (![] : Fin 0 → Fin S500000.rank)
  bcast_S_S65536 : S_.BroadcastsInDim S65536 (![] : Fin 0 → Fin S65536.rank)
  bcast_S500000_S500000x1_0 : S500000.BroadcastsInDim S500000x1 (![0] : Fin 1 → Fin S500000x1.rank)
  bcast_S65536_S65536x1_0 : S65536.BroadcastsInDim S65536x1 (![0] : Fin 1 → Fin S65536x1.rank)
  shapeCasts_S65536_S16x4096 : S65536.ShapeCasts S16x4096
  shapeCasts_S1024_S1x1024x1 : S1024.ShapeCasts S1x1024x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  shapeCasts_S16x128_S16x1x128 : S16x128.ShapeCasts S16x1x128
  broadcasts_S16x1x128_S16x1024x128 : S16x1x128.Broadcasts S16x1024x128
  broadcasts_S1x1024x1_S16x1024x128 : S1x1024x1.Broadcasts S16x1024x128
  inb_S16x1024x128_S16x1024x128_0_0_0 : ∀ a, (![0, 0, 0] : Fin 3 → Nat) a + S16x1024x128.size a ≤ S16x1024x128.size a
  h_S16x1024x128 : 0 < S16x1024x128.numel
  scatter_S65536_S500000x1_S500000_n_0_0_1_wf : ScatterDims.WF S65536 S500000x1 S500000 [] [0] [0] 1
  gather_S1025_S65536x1_S65536_n_0_n_n_0_1_1_wf : GatherDims.WF S1025 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x4096.size a
  hwx0_0 : ∀ i : grid0.Coords, EltTy.bits .f32 = 32 ∨ (Rect.block (s := S16x4096) S16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S1x1024x1.size a
  hwx0_1 : ∀ i : grid0.Coords, EltTy.bits .f32 = 32 ∨ (Rect.block (s := S1x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024x128.size a ≤ S16x1024x4096.size a
  hwx0_2 : ∀ i : grid0.Coords, EltTy.bits .f32 = 32 ∨ (Rect.block (s := S16x1024x4096) S16x1024x128.size (cc0_transform_2 i) (hinb0_2 i)).WholeWords (EltTy.packing .f32)

variable [Facts₀]

def scatter_S65536_S500000x1_S500000_n_0_0_1 : ScatterDims S65536 S500000x1 S500000 where
  updateWindowDims := []
  insertedWindowDims := [0]
  scatterDimsToOperandDims := [0]
  indexVectorDim := 1
  wf := scatter_S65536_S500000x1_S500000_n_0_0_1_wf
def gather_S1025_S65536x1_S65536_n_0_n_n_0_1_1 : GatherDims S1025 S65536x1 S65536 where
  offsetDims := []
  collapsedSliceDims := [0]
  operandBatchingDims := []
  startIndicesBatchingDims := []
  startIndexMap := [0]
  indexVectorDim := 1
  sliceSizes := ![1]
  wf := gather_S1025_S65536x1_S65536_n_0_n_n_0_1_1_wf

abbrev win0_0 : Pipeline.Window sig grid0 :=
  Pipeline.Window.ofSpec (Memref.whole main_v21) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S16x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S1025 : Shape := ⟨1, ![1025]⟩
abbrev S1024 : Shape := ⟨1, ![1024]⟩
abbrev S_ : Shape := ⟨0, ![]⟩
abbrev S16x1024x4096 : Shape := ⟨3, ![16, 1024, 4096]⟩
abbrev S500000x1 : Shape := ⟨2, ![500000, 1]⟩
abbrev S500000x3 : Shape := ⟨2, ![500000, 3]⟩
abbrev S16x4096 : Shape := ⟨2, ![16, 4096]⟩
abbrev S16x1x4096 : Shape := ⟨3, ![16, 1, 4096]⟩
abbrev S16x1x4096x1 : Shape := ⟨4, ![16, 1, 4096, 1]⟩
abbrev S1x1024x1 : Shape := ⟨3, ![1, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .i32⟩
  | .hbm, ⟨3, _⟩ => ⟨S1025, .f32⟩
  | .hbm, ⟨4, _⟩ => ⟨S1024, .f32⟩
  | .hbm, ⟨5, _⟩ => ⟨S_, .i32⟩
  | .hbm, ⟨6, _⟩ => ⟨S16x1024x4096, .i32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x1, .i32⟩
  | .hbm, ⟨30, _⟩ => ⟨S500000x1, .i32⟩
  | .hbm, ⟨31, _⟩ => ⟨S500000x3, .i32⟩
  | .hbm, ⟨32, _⟩ => ⟨S16x1024x4096, .i32⟩
  | .hbm, ⟨33, _⟩ => ⟨S16x1024x4096, .i32⟩
  | .hbm, ⟨34, _⟩ => ⟨S_, .i32⟩
  | .hbm, ⟨35, _⟩ => ⟨S_, .i32⟩
  | .hbm, ⟨36, _⟩ => ⟨S16x4096, .i32⟩
  | .hbm, ⟨37, _⟩ => ⟨S16x4096, .i32⟩
  | .hbm, ⟨38, _⟩ => ⟨S16x1x4096, .i32⟩
  | .hbm, ⟨39, _⟩ => ⟨S_, .i32⟩
  | .hbm, ⟨40, _⟩ => ⟨S16x1024x4096, .i32⟩
  | .hbm, ⟨41, _⟩ => ⟨S16x1024x4096, .i1⟩
  | .hbm, ⟨42, _⟩ => ⟨S_, .i1⟩
  | .hbm, ⟨43, _⟩ => ⟨S16x4096, .i1⟩
  | .hbm, ⟨44, _⟩ => ⟨S16x1x4096, .i1⟩
  | .hbm, ⟨45, _⟩ => ⟨S_, .i32⟩
  | .hbm, ⟨46, _⟩ => ⟨S_, .i32⟩
  | .hbm, ⟨47, _⟩ => ⟨S16x1x4096, .i32⟩
  | .hbm, ⟨48, _⟩ => ⟨S16x1x4096, .i32⟩
  | .hbm, ⟨49, _⟩ => ⟨S_, .i32⟩
  | .hbm, ⟨50, _⟩ => ⟨S16x1x4096, .i32⟩
  | .hbm, ⟨51, _⟩ => ⟨S16x1x4096, .i1⟩
  | .hbm, ⟨52, _⟩ => ⟨S_, .i32⟩
  | .hbm, ⟨53, _⟩ => ⟨S16x1x4096, .i32⟩
  | .hbm, ⟨54, _⟩ => ⟨S16x1x4096, .i32⟩
  | .hbm, ⟨55, _⟩ => ⟨S16x1x4096, .i32⟩
  | .hbm, ⟨56, _⟩ => ⟨S16x1x4096x1, .i32⟩
  | .hbm, ⟨57, _⟩ => ⟨S16x1x4096, .f32⟩
  | .hbm, ⟨58, _⟩ => ⟨S1x1024x1, .f32⟩
  | .hbm, ⟨59, _⟩ => ⟨S16x1024x4096, .f32⟩
  | .hbm, ⟨60, _⟩ => ⟨S16x1024x4096, .f32⟩
  | .hbm, ⟨61, _⟩ => ⟨S16x1024x4096, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_c : Ref sig .tc := ⟨.hbm, 34, rfl⟩
abbrev main_call0_c_0 : Ref sig .tc := ⟨.hbm, 35, rfl⟩
abbrev main_call0_v1_0 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_call1_v0 : Ref sig .tc := ⟨.hbm, 46, rfl⟩
abbrev main_call1_v1 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S16x1024x4096 : S_.BroadcastsInDim S16x1024x4096 (![] : Fin 0 → Fin S16x1024x4096.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x1_S500000x3_d1 : Shape.Concatenates [S500000x1, S500000x1, S500000x1] S500000x3 1
  reducesTo_S16x1024x4096_S16x4096_d1 : S16x1024x4096.ReducesTo [1] S16x4096
  h_S_ : 0 < S_.numel
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x1x4096x1_0_1_2 : S16x1x4096.BroadcastsInDim S16x1x4096x1 (![0, 1, 2] : Fin 3 → Fin S16x1x4096x1.rank)
  shapeCasts_S1024_S1x1024x1 : S1024.ShapeCasts S1x1024x1
  bcast_S16x1x4096_S16x1024x4096_0_1_2 : S16x1x4096.BroadcastsInDim S16x1024x4096 (![0, 1, 2] : Fin 3 → Fin S16x1024x4096.rank)
  bcast_S1x1024x1_S16x1024x4096_0_1_2 : S1x1024x1.BroadcastsInDim S16x1024x4096 (![0, 1, 2] : Fin 3 → Fin S16x1024x4096.rank)
  scatter_S16x1024x4096_S500000x3_S500000_n_012_012_1_wf : ScatterDims.WF S16x1024x4096 S500000x3 S500000 [] [0, 1, 2] [0, 1, 2] 1
  gather_S1025_S16x1x4096x1_S16x1x4096_n_0_n_n_0_3_1_wf : GatherDims.WF S1025 S16x1x4096x1 S16x1x4096 [] [0] [] [0] [] 3 ![1]

variable [Facts₀]

def scatter_S16x1024x4096_S500000x3_S500000_n_012_012_1 : ScatterDims S16x1024x4096 S500000x3 S500000 where
  updateWindowDims := []
  insertedWindowDims := [0, 1, 2]
  scatterDimsToOperandDims := [0, 1, 2]
  indexVectorDim := 1
  wf := scatter_S16x1024x4096_S500000x3_S500000_n_012_012_1_wf
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1025_S16x1x4096x1_S16x1x4096_n_0_n_n_0_3_1 : GatherDims S1025 S16x1x4096x1 S16x1x4096 where
  offsetDims := []
  collapsedSliceDims := [0]
  operandBatchingDims := []
  startIndicesBatchingDims := []
  startIndexMap := [0]
  indexVectorDim := 3
  sliceSizes := ![1]
  wf := gather_S1025_S16x1x4096x1_S16x1x4096_n_0_n_n_0_3_1_wf

class Facts : Prop extends Facts₀ where

variable [Facts]
-- ==== Proof.RSpec.lean ====
/-
  The reference program's result as a pure function of its five argument arrays, stage by stage.
  Points `n` carry a channel `f n`, a range bin `rho n` and an angle bin `theta n`. The occupancy volume holds, at
  (channel, range, angle), the range bin of a point that sits there and `-1` where no point sits; per (channel, angle)
  column the result takes the largest occupied range bin (or `1024` for an empty column), reads the table `rp` there
  and subtracts the row vector `r` along the range axis.
-/
import proofs.«427130_j11433202942091_3_alg».proof.Proof.Gen.ReferenceIdeal

noncomputable section

namespace Cert.ReferenceIdeal.Spec

open Idealize.ShloMosaic Cert.ReferenceIdeal Cert.ReferenceIdeal.Gen

variable {F : FTy → Type} [FloatOps F]

/-- An index word as array indexing reads it on an axis of extent `n`: a negative word counts from the axis' end. -/
def wrap (n : BitVec 32) (x : IVec S500000 32) : IVec S500000 32 :=
  select (cmpi .slt x (broadcastInDim S500000 ![] bcast_S_S500000 (constantI S_ 32 0#32)))
    (addi x (broadcastInDim S500000 ![] bcast_S_S500000 (constantI S_ 32 n))) x

/-- A vector of points as a one-column table. -/
def col (x : IVec S500000 32) : IVec S500000x1 32 := broadcastInDim S500000x1 ![0] bcast_S500000_S500000x1_0 x

/-- The points' (channel, range, angle) index triples, one row per point. -/
def triples (rho theta f : IVec S500000 32) : IVec S500000x3 32 :=
  concatenate S500000x3 1 [⟨S500000x1, col (wrap 16#32 f)⟩, ⟨S500000x1, col (wrap 1024#32 rho)⟩, ⟨S500000x1, col (wrap 4096#32 theta)⟩]
    concatenates_S500000x1_S500000x1_S500000x1_S500000x3_d1

/-- The occupancy volume: `-1` everywhere, then each point's range bin written at the point's triple. -/
def occ (rho theta f : IVec S500000 32) : IVec S16x1024x4096 32 :=
  Host.scatter scatter_S16x1024x4096_S500000x3_S500000_n_012_012_1 (fun _ b => b)
    (broadcastInDim S16x1024x4096 ![] bcast_S_S16x1024x4096 (constantI S_ 32 4294967295#32)) (triples rho theta f) rho

/-- Per (channel, angle) column, the position along the range axis of the column's greatest entry (the first such). -/
def amax (o : IVec S16x1024x4096 32) : IVec S16x4096 32 := fun j =>
  (Host.reduce2 reducer_argmax_i32_i32 o (iotaInDim S16x1024x4096 32 1) (constantI S_ 32 2147483648#32) (constantI S_ 32 0#32)
    reducesTo_S16x1024x4096_S16x4096_d1 h_S_ j).2

/-- Per column, whether every entry is `-1`: no point sits in the column. -/
def empt (o : IVec S16x1024x4096 32) : IVec S16x4096 1 :=
  Host.reduce IntOp.andi (cmpi .eq o (broadcastInDim S16x1024x4096 ![] bcast_S_S16x1024x4096 (constantI S_ 32 4294967295#32)))
    (constantI S_ 1 1#1) reducesTo_S16x1024x4096_S16x4096_d1 h_S_

/-- Per column the table position to read: `1024` for an empty column, else the greatest entry's position. -/
def ids (o : IVec S16x1024x4096 32) : IVec S16x1x4096 32 :=
  select (broadcastInDim S16x1x4096 ![0, 2] bcast_S16x4096_S16x1x4096_0_2 (empt o))
    (broadcastInDim S16x1x4096 ![] bcast_S_S16x1x4096 (id (constantI S_ 32 1024#32)))
    (broadcastInDim S16x1x4096 ![0, 2] bcast_S16x4096_S16x1x4096_0_2 (amax o))

/-- A table position as indexing reads it on the table's 1025 entries. -/
def widx (v : IVec S16x1x4096 32) : IVec S16x1x4096 32 :=
  select (cmpi .slt v (broadcastInDim S16x1x4096 ![] bcast_S_S16x1x4096 (constantI S_ 32 0#32)))
    (addi v (broadcastInDim S16x1x4096 ![] bcast_S_S16x1x4096 (constantI S_ 32 1025#32))) v

/-- The table read at each column's position. -/
def gath (rp : FVec F S1025 .f32) (v : IVec S16x1x4096 32) : FVec F S16x1x4096 .f32 :=
  Host.gather gather_S1025_S16x1x4096x1_S16x1x4096_n_0_n_n_0_3_1 rp
    (broadcastInDim S16x1x4096x1 ![0, 1, 2] bcast_S16x1x4096_S16x1x4096x1_0_1_2 v)

/-- The reference's result: the column's table entry less the range axis' entry of `r`. -/
def rRes (rho theta f : IVec S500000 32) (rp : FVec F S1025 .f32) (r : FVec F S1024 .f32) : FVec F S16x1024x4096 .f32 :=
  subf (broadcastInDim S16x1024x4096 ![0, 1, 2] bcast_S16x1x4096_S16x1024x4096_0_1_2 (gath rp (widx (ids (occ rho theta f)))))
    (broadcastInDim S16x1024x4096 ![0, 1, 2] bcast_S1x1024x1_S16x1024x4096_0_1_2 (shapeCast S1x1024x1 r shapeCasts_S1024_S1x1024x1))

end Cert.ReferenceIdeal.Spec

end
-- ==== Proof.RRun.lean ====
/-
  The reference program's run: every weakly fair execution of its @main terminates with the result array at
  `Spec.rRes` of the argument arrays and the arguments unchanged.

  @main is a straight line of 57 host operations once its two calls are read at their call sites (the position
  search over the range axis: five operations; the choice between a constant and a table position: three). The run
  of such a line ends with every buffer at the fold of the operations' results over the launch contents; read at the
  result buffer, the fold is the stages of `Spec.rRes` composed, and read at an argument buffer, which no operation
  writes, it is what the buffer held.
-/
import proofs.«427130_j11433202942091_3_alg».proof.Proof.RSpec
import Idealize.ShloMosaic.Lib.StableHlo.Run
import Idealize.ShloMosaic.Lib.Pipeline.Frame

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- @main's 57 operations in order, each call's operations listed where the call stands, over the call's own buffers. -/
abbrev ops : List (HloOp τ sig (Elt F)) :=
  [ nullary main_c (constantI S_ 32 4294967295#32),
    unary main_c main_v0 (broadcastInDim S16x1024x4096 ![] bcast_S_S16x1024x4096 : (⟨S_, .i32⟩ : BufTy).Contents (Elt F) → (⟨S16x1024x4096, .i32⟩ : BufTy).Contents (Elt F)),
    nullary main_c_0 (constantI S_ 32 0#32),
    unary main_c_0 main_v1 (broadcastInDim S500000 ![] bcast_S_S500000 : (⟨S_, .i32⟩ : BufTy).Contents (Elt F) → (⟨S500000, .i32⟩ : BufTy).Contents (Elt F)),
    binary main_arg2 main_v1 main_v2 (cmpi .slt : (⟨S500000, .i32⟩ : BufTy).Contents (Elt F) → (⟨S500000, .i32⟩ : BufTy).Contents (Elt F) → (⟨S500000, .i1⟩ : BufTy).Contents (Elt F)),
    nullary main_c_1 (constantI S_ 32 16#32),
    unary main_c_1 main_v3 (broadcastInDim S500000 ![] bcast_S_S500000 : (⟨S_, .i32⟩ : BufTy).Contents (Elt F) → (⟨S500000, .i32⟩ : BufTy).Contents (Elt F)),
    binary main_arg2 main_v3 main_v4 (addi : (⟨S500000, .i32⟩ : BufTy).Contents (Elt F) → (⟨S500000, .i32⟩ : BufTy).Contents (Elt F) → (⟨S500000, .i32⟩ : BufTy).Contents (Elt F)),
    ternary main_v2 main_v4 main_arg2 main_v5 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    nullary main_c_2 (constantI S_ 32 0#32),
    unary main_c_2 main_v6 (broadcastInDim S500000 ![] bcast_S_S500000 : (⟨S_, .i32⟩ : BufTy).Contents (Elt F) → (⟨S500000, .i32⟩ : BufTy).Contents (Elt F)),
    binary main_arg0 main_v6 main_v7 (cmpi .slt : (⟨S500000, .i32⟩ : BufTy).Contents (Elt F) → (⟨S500000, .i32⟩ : BufTy).Contents (Elt F) → (⟨S500000, .i1⟩ : BufTy).Contents (Elt F)),
    nullary main_c_3 (constantI S_ 32 1024#32),
    unary main_c_3 main_v8 (broadcastInDim S500000 ![] bcast_S_S500000 : (⟨S_, .i32⟩ : BufTy).Contents (Elt F) → (⟨S500000, .i32⟩ : BufTy).Contents (Elt F)),
    binary main_arg0 main_v8 main_v9 (addi : (⟨S500000, .i32⟩ : BufTy).Contents (Elt F) → (⟨S500000, .i32⟩ : BufTy).Contents (Elt F) → (⟨S500000, .i32⟩ : BufTy).Contents (Elt F)),
    ternary main_v7 main_v9 main_arg0 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    nullary main_c_4 (constantI S_ 32 0#32),
    unary main_c_4 main_v11 (broadcastInDim S500000 ![] bcast_S_S500000 : (⟨S_, .i32⟩ : BufTy).Contents (Elt F) → (⟨S500000, .i32⟩ : BufTy).Contents (Elt F)),
    binary main_arg1 main_v11 main_v12 (cmpi .slt : (⟨S500000, .i32⟩ : BufTy).Contents (Elt F) → (⟨S500000, .i32⟩ : BufTy).Contents (Elt F) → (⟨S500000, .i1⟩ : BufTy).Contents (Elt F)),
    nullary main_c_5 (constantI S_ 32 4096#32),
    unary main_c_5 main_v13 (broadcastInDim S500000 ![] bcast_S_S500000 : (⟨S_, .i32⟩ : BufTy).Contents (Elt F) → (⟨S500000, .i32⟩ : BufTy).Contents (Elt F)),
    binary main_arg1 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_arg1 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v5 main_v16 (broadcastInDim S500000x1 ![0] bcast_S500000_S500000x1_0 : (⟨S500000, .i32⟩ : BufTy).Contents (Elt F) → (⟨S500000x1, .i32⟩ : BufTy).Contents (Elt F)),
    unary main_v10 main_v17 (broadcastInDim S500000x1 ![0] bcast_S500000_S500000x1_0 : (⟨S500000, .i32⟩ : BufTy).Contents (Elt F) → (⟨S500000x1, .i32⟩ : BufTy).Contents (Elt F)),
    unary main_v15 main_v18 (broadcastInDim S500000x1 ![0] bcast_S500000_S500000x1_0 : (⟨S500000, .i32⟩ : BufTy).Contents (Elt F) → (⟨S500000x1, .i32⟩ : BufTy).Contents (Elt F)),
    nary ![main_v16, main_v17, main_v18] main_v19 (fun u => concatenate S500000x3 1 [⟨S500000x1, u 0⟩, ⟨S500000x1, u 1⟩, ⟨S500000x1, u 2⟩] concatenates_S500000x1_S500000x1_S500000x1_S500000x3_d1),
    ternary main_v0 main_v19 main_arg0 main_v20 ((fun x i u => Host.scatter scatter_S16x1024x4096_S500000x3_S500000_n_012_012_1 (fun _ b => b) x i u) : (⟨S16x1024x4096, .i32⟩ : BufTy).Contents (Elt F) → (⟨S500000x3, .i32⟩ : BufTy).Contents (Elt F) → (⟨S500000, .i32⟩ : BufTy).Contents (Elt F) → (⟨S16x1024x4096, .i32⟩ : BufTy).Contents (Elt F)),
    TRef.nullary main_call0.v0 (iotaInDim S16x1024x4096 32 1),
    TRef.nullary main_call0.c (constantI S_ 32 2147483648#32),
    TRef.nullary main_call0.c_0 (constantI S_ 32 0#32),
    TRef.quaternary (.of main_v20) main_call0.v0 main_call0.c main_call0.c_0 main_call0.v1_0 (fun x y u v j => (Host.reduce2 reducer_argmax_i32_i32 x y u v reducesTo_S16x1024x4096_S16x4096_d1 h_S_ j).1),
    TRef.quaternary (.of main_v20) main_call0.v0 main_call0.c main_call0.c_0 main_call0.v1_1 (fun x y u v j => (Host.reduce2 reducer_argmax_i32_i32 x y u v reducesTo_S16x1024x4096_S16x4096_d1 h_S_ j).2),
    unary main_v21 main_v22 (broadcastInDim S16x1x4096 ![0, 2] bcast_S16x4096_S16x1x4096_0_2 : (⟨S16x4096, .i32⟩ : BufTy).Contents (Elt F) → (⟨S16x1x4096, .i32⟩ : BufTy).Contents (Elt F)),
    nullary main_c_6 (constantI S_ 32 4294967295#32),
    unary main_c_6 main_v23 (broadcastInDim S16x1024x4096 ![] bcast_S_S16x1024x4096 : (⟨S_, .i32⟩ : BufTy).Contents (Elt F) → (⟨S16x1024x4096, .i32⟩ : BufTy).Contents (Elt F)),
    binary main_v20 main_v23 main_v24 (cmpi .eq : (⟨S16x1024x4096, .i32⟩ : BufTy).Contents (Elt F) → (⟨S16x1024x4096, .i32⟩ : BufTy).Contents (Elt F) → (⟨S16x1024x4096, .i1⟩ : BufTy).Contents (Elt F)),
    nullary main_c_7 (constantI S_ 1 1#1),
    binary main_v24 main_c_7 main_v25 ((fun x v => Host.reduce IntOp.andi x v reducesTo_S16x1024x4096_S16x4096_d1 h_S_) : (⟨S16x1024x4096, .i1⟩ : BufTy).Contents (Elt F) → (⟨S_, .i1⟩ : BufTy).Contents (Elt F) → (⟨S16x4096, .i1⟩ : BufTy).Contents (Elt F)),
    unary main_v25 main_v26 (broadcastInDim S16x1x4096 ![0, 2] bcast_S16x4096_S16x1x4096_0_2 : (⟨S16x4096, .i1⟩ : BufTy).Contents (Elt F) → (⟨S16x1x4096, .i1⟩ : BufTy).Contents (Elt F)),
    nullary main_c_8 (constantI S_ 32 1024#32),
    TRef.unary (.of main_c_8) main_call1.v0 id,
    TRef.unary main_call1.v0 main_call1.v1 (broadcastInDim S16x1x4096 ![] bcast_S_S16x1x4096),
    TRef.ternary (.of main_v26) main_call1.v1 (.of main_v22) main_call1.v2 select,
    nullary main_c_9 (constantI S_ 32 0#32),
    unary main_c_9 main_v28 (broadcastInDim S16x1x4096 ![] bcast_S_S16x1x4096 : (⟨S_, .i32⟩ : BufTy).Contents (Elt F) → (⟨S16x1x4096, .i32⟩ : BufTy).Contents (Elt F)),
    binary main_v27 main_v28 main_v29 (cmpi .slt : (⟨S16x1x4096, .i32⟩ : BufTy).Contents (Elt F) → (⟨S16x1x4096, .i32⟩ : BufTy).Contents (Elt F) → (⟨S16x1x4096, .i1⟩ : BufTy).Contents (Elt F)),
    nullary main_c_10 (constantI S_ 32 1025#32),
    unary main_c_10 main_v30 (broadcastInDim S16x1x4096 ![] bcast_S_S16x1x4096 : (⟨S_, .i32⟩ : BufTy).Contents (Elt F) → (⟨S16x1x4096, .i32⟩ : BufTy).Contents (Elt F)),
    binary main_v27 main_v30 main_v31 (addi : (⟨S16x1x4096, .i32⟩ : BufTy).Contents (Elt F) → (⟨S16x1x4096, .i32⟩ : BufTy).Contents (Elt F) → (⟨S16x1x4096, .i32⟩ : BufTy).Contents (Elt F)),
    ternary main_v29 main_v31 main_v27 main_v32 (select : (⟨S16x1x4096, .i1⟩ : BufTy).Contents (Elt F) → (⟨S16x1x4096, .i32⟩ : BufTy).Contents (Elt F) → (⟨S16x1x4096, .i32⟩ : BufTy).Contents (Elt F) → (⟨S16x1x4096, .i32⟩ : BufTy).Contents (Elt F)),
    unary main_v32 main_v33 (broadcastInDim S16x1x4096x1 ![0, 1, 2] bcast_S16x1x4096_S16x1x4096x1_0_1_2 : (⟨S16x1x4096, .i32⟩ : BufTy).Contents (Elt F) → (⟨S16x1x4096x1, .i32⟩ : BufTy).Contents (Elt F)),
    binary main_arg3 main_v33 main_v34 ((fun x i => Host.gather gather_S1025_S16x1x4096x1_S16x1x4096_n_0_n_n_0_3_1 x i) : (⟨S1025, .f32⟩ : BufTy).Contents (Elt F) → (⟨S16x1x4096x1, .i32⟩ : BufTy).Contents (Elt F) → (⟨S16x1x4096, .f32⟩ : BufTy).Contents (Elt F)),
    reshape main_arg4 main_v35 rfl shapeCasts_S1024_S1x1024x1,
    unary main_v34 main_v36 (broadcastInDim S16x1024x4096 ![0, 1, 2] bcast_S16x1x4096_S16x1024x4096_0_1_2 : (⟨S16x1x4096, .f32⟩ : BufTy).Contents (Elt F) → (⟨S16x1024x4096, .f32⟩ : BufTy).Contents (Elt F)),
    unary main_v35 main_v37 (broadcastInDim S16x1024x4096 ![0, 1, 2] bcast_S1x1024x1_S16x1024x4096_0_1_2 : (⟨S1x1024x1, .f32⟩ : BufTy).Contents (Elt F) → (⟨S16x1024x4096, .f32⟩ : BufTy).Contents (Elt F)),
    binary main_v36 main_v37 main_v38 (subf : (⟨S16x1024x4096, .f32⟩ : BufTy).Contents (Elt F) → (⟨S16x1024x4096, .f32⟩ : BufTy).Contents (Elt F) → (⟨S16x1024x4096, .f32⟩ : BufTy).Contents (Elt F)) ]

-- a chain of 57 sequenced steps is deeper than the default recursion bound
set_option maxRecDepth 2048 in
/-- @main is that straight line: the two functions unfolded at their calls, sequencing re-associated. -/
theorem main_eq (c : Dev nD) : main (F := F) c = seq ops := by
  simp only [main, fn_argmax.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub ..⟩

/-! ## The line in seven stretches

Each stretch is read over an arbitrary starting valuation `W`: what it leaves in the buffer the next stretch reads,
as a stage of `Spec` applied to what it found, and that it leaves alone the buffers read later. -/

/-- Operations 1–26: the `-1` volume, then each index vector wrapped and set as a one-column table. -/
abbrev opsA : List (HloOp τ sig (Elt F)) :=
  [ nullary main_c (constantI S_ 32 4294967295#32),
    unary main_c main_v0 (broadcastInDim S16x1024x4096 ![] bcast_S_S16x1024x4096 : (⟨S_, .i32⟩ : BufTy).Contents (Elt F) → (⟨S16x1024x4096, .i32⟩ : BufTy).Contents (Elt F)),
    nullary main_c_0 (constantI S_ 32 0#32),
    unary main_c_0 main_v1 (broadcastInDim S500000 ![] bcast_S_S500000 : (⟨S_, .i32⟩ : BufTy).Contents (Elt F) → (⟨S500000, .i32⟩ : BufTy).Contents (Elt F)),
    binary main_arg2 main_v1 main_v2 (cmpi .slt : (⟨S500000, .i32⟩ : BufTy).Contents (Elt F) → (⟨S500000, .i32⟩ : BufTy).Contents (Elt F) → (⟨S500000, .i1⟩ : BufTy).Contents (Elt F)),
    nullary main_c_1 (constantI S_ 32 16#32),
    unary main_c_1 main_v3 (broadcastInDim S500000 ![] bcast_S_S500000 : (⟨S_, .i32⟩ : BufTy).Contents (Elt F) → (⟨S500000, .i32⟩ : BufTy).Contents (Elt F)),
    binary main_arg2 main_v3 main_v4 (addi : (⟨S500000, .i32⟩ : BufTy).Contents (Elt F) → (⟨S500000, .i32⟩ : BufTy).Contents (Elt F) → (⟨S500000, .i32⟩ : BufTy).Contents (Elt F)),
    ternary main_v2 main_v4 main_arg2 main_v5 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    nullary main_c_2 (constantI S_ 32 0#32),
    unary main_c_2 main_v6 (broadcastInDim S500000 ![] bcast_S_S500000 : (⟨S_, .i32⟩ : BufTy).Contents (Elt F) → (⟨S500000, .i32⟩ : BufTy).Contents (Elt F)),
    binary main_arg0 main_v6 main_v7 (cmpi .slt : (⟨S500000, .i32⟩ : BufTy).Contents (Elt F) → (⟨S500000, .i32⟩ : BufTy).Contents (Elt F) → (⟨S500000, .i1⟩ : BufTy).Contents (Elt F)),
    nullary main_c_3 (constantI S_ 32 1024#32),
    unary main_c_3 main_v8 (broadcastInDim S500000 ![] bcast_S_S500000 : (⟨S_, .i32⟩ : BufTy).Contents (Elt F) → (⟨S500000, .i32⟩ : BufTy).Contents (Elt F)),
    binary main_arg0 main_v8 main_v9 (addi : (⟨S500000, .i32⟩ : BufTy).Contents (Elt F) → (⟨S500000, .i32⟩ : BufTy).Contents (Elt F) → (⟨S500000, .i32⟩ : BufTy).Contents (Elt F)),
    ternary main_v7 main_v9 main_arg0 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    nullary main_c_4 (constantI S_ 32 0#32),
    unary main_c_4 main_v11 (broadcastInDim S500000 ![] bcast_S_S500000 : (⟨S_, .i32⟩ : BufTy).Contents (Elt F) → (⟨S500000, .i32⟩ : BufTy).Contents (Elt F)),
    binary main_arg1 main_v11 main_v12 (cmpi .slt : (⟨S500000, .i32⟩ : BufTy).Contents (Elt F) → (⟨S500000, .i32⟩ : BufTy).Contents (Elt F) → (⟨S500000, .i1⟩ : BufTy).Contents (Elt F)),
    nullary main_c_5 (constantI S_ 32 4096#32),
    unary main_c_5 main_v13 (broadcastInDim S500000 ![] bcast_S_S500000 : (⟨S_, .i32⟩ : BufTy).Contents (Elt F) → (⟨S500000, .i32⟩ : BufTy).Contents (Elt F)),
    binary main_arg1 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_arg1 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v5 main_v16 (broadcastInDim S500000x1 ![0] bcast_S500000_S500000x1_0 : (⟨S500000, .i32⟩ : BufTy).Contents (Elt F) → (⟨S500000x1, .i32⟩ : BufTy).Contents (Elt F)),
    unary main_v10 main_v17 (broadcastInDim S500000x1 ![0] bcast_S500000_S500000x1_0 : (⟨S500000, .i32⟩ : BufTy).Contents (Elt F) → (⟨S500000x1, .i32⟩ : BufTy).Contents (Elt F)),
    unary main_v15 main_v18 (broadcastInDim S500000x1 ![0] bcast_S500000_S500000x1_0 : (⟨S500000, .i32⟩ : BufTy).Contents (Elt F) → (⟨S500000x1, .i32⟩ : BufTy).Contents (Elt F)) ]
/-- Operations 27–28: the three columns side by side, then the scatter of the range bins into the volume. -/
abbrev opsC : List (HloOp τ sig (Elt F)) :=
  [ nary ![main_v16, main_v17, main_v18] main_v19 (fun u => concatenate S500000x3 1 [⟨S500000x1, u 0⟩, ⟨S500000x1, u 1⟩, ⟨S500000x1, u 2⟩] concatenates_S500000x1_S500000x1_S500000x1_S500000x3_d1),
    ternary main_v0 main_v19 main_arg0 main_v20 ((fun x i u => Host.scatter scatter_S16x1024x4096_S500000x3_S500000_n_012_012_1 (fun _ b => b) x i u) : (⟨S16x1024x4096, .i32⟩ : BufTy).Contents (Elt F) → (⟨S500000x3, .i32⟩ : BufTy).Contents (Elt F) → (⟨S500000, .i32⟩ : BufTy).Contents (Elt F) → (⟨S16x1024x4096, .i32⟩ : BufTy).Contents (Elt F)) ]
/-- Operations 29–34: the position search along the range axis (the first call), its result spread over a unit axis. -/
abbrev opsD : List (HloOp τ sig (Elt F)) :=
  [ TRef.nullary main_call0.v0 (iotaInDim S16x1024x4096 32 1),
    TRef.nullary main_call0.c (constantI S_ 32 2147483648#32),
    TRef.nullary main_call0.c_0 (constantI S_ 32 0#32),
    TRef.quaternary (.of main_v20) main_call0.v0 main_call0.c main_call0.c_0 main_call0.v1_0 (fun x y u v j => (Host.reduce2 reducer_argmax_i32_i32 x y u v reducesTo_S16x1024x4096_S16x4096_d1 h_S_ j).1),
    TRef.quaternary (.of main_v20) main_call0.v0 main_call0.c main_call0.c_0 main_call0.v1_1 (fun x y u v j => (Host.reduce2 reducer_argmax_i32_i32 x y u v reducesTo_S16x1024x4096_S16x4096_d1 h_S_ j).2),
    unary main_v21 main_v22 (broadcastInDim S16x1x4096 ![0, 2] bcast_S16x4096_S16x1x4096_0_2 : (⟨S16x4096, .i32⟩ : BufTy).Contents (Elt F) → (⟨S16x1x4096, .i32⟩ : BufTy).Contents (Elt F)) ]
/-- Operations 35–40: whether a column holds only `-1`, spread over a unit axis. -/
abbrev opsE : List (HloOp τ sig (Elt F)) :=
  [ nullary main_c_6 (constantI S_ 32 4294967295#32),
    unary main_c_6 main_v23 (broadcastInDim S16x1024x4096 ![] bcast_S_S16x1024x4096 : (⟨S_, .i32⟩ : BufTy).Contents (Elt F) → (⟨S16x1024x4096, .i32⟩ : BufTy).Contents (Elt F)),
    binary main_v20 main_v23 main_v24 (cmpi .eq : (⟨S16x1024x4096, .i32⟩ : BufTy).Contents (Elt F) → (⟨S16x1024x4096, .i32⟩ : BufTy).Contents (Elt F) → (⟨S16x1024x4096, .i1⟩ : BufTy).Contents (Elt F)),
    nullary main_c_7 (constantI S_ 1 1#1),
    binary main_v24 main_c_7 main_v25 ((fun x v => Host.reduce IntOp.andi x v reducesTo_S16x1024x4096_S16x4096_d1 h_S_) : (⟨S16x1024x4096, .i1⟩ : BufTy).Contents (Elt F) → (⟨S_, .i1⟩ : BufTy).Contents (Elt F) → (⟨S16x4096, .i1⟩ : BufTy).Contents (Elt F)),
    unary main_v25 main_v26 (broadcastInDim S16x1x4096 ![0, 2] bcast_S16x4096_S16x1x4096_0_2 : (⟨S16x4096, .i1⟩ : BufTy).Contents (Elt F) → (⟨S16x1x4096, .i1⟩ : BufTy).Contents (Elt F)) ]
/-- Operations 41–44: the constant `1024` and the choice between it and the position (the second call). -/
abbrev opsG : List (HloOp τ sig (Elt F)) :=
  [ nullary main_c_8 (constantI S_ 32 1024#32),
    TRef.unary (.of main_c_8) main_call1.v0 id,
    TRef.unary main_call1.v0 main_call1.v1 (broadcastInDim S16x1x4096 ![] bcast_S_S16x1x4096),
    TRef.ternary (.of main_v26) main_call1.v1 (.of main_v22) main_call1.v2 select ]
/-- Operations 45–51: the table position as indexing reads it. -/
abbrev opsH : List (HloOp τ sig (Elt F)) :=
  [ nullary main_c_9 (constantI S_ 32 0#32),
    unary main_c_9 main_v28 (broadcastInDim S16x1x4096 ![] bcast_S_S16x1x4096 : (⟨S_, .i32⟩ : BufTy).Contents (Elt F) → (⟨S16x1x4096, .i32⟩ : BufTy).Contents (Elt F)),
    binary main_v27 main_v28 main_v29 (cmpi .slt : (⟨S16x1x4096, .i32⟩ : BufTy).Contents (Elt F) → (⟨S16x1x4096, .i32⟩ : BufTy).Contents (Elt F) → (⟨S16x1x4096, .i1⟩ : BufTy).Contents (Elt F)),
    nullary main_c_10 (constantI S_ 32 1025#32),
    unary main_c_10 main_v30 (broadcastInDim S16x1x4096 ![] bcast_S_S16x1x4096 : (⟨S_, .i32⟩ : BufTy).Contents (Elt F) → (⟨S16x1x4096, .i32⟩ : BufTy).Contents (Elt F)),
    binary main_v27 main_v30 main_v31 (addi : (⟨S16x1x4096, .i32⟩ : BufTy).Contents (Elt F) → (⟨S16x1x4096, .i32⟩ : BufTy).Contents (Elt F) → (⟨S16x1x4096, .i32⟩ : BufTy).Contents (Elt F)),
    ternary main_v29 main_v31 main_v27 main_v32 (select : (⟨S16x1x4096, .i1⟩ : BufTy).Contents (Elt F) → (⟨S16x1x4096, .i32⟩ : BufTy).Contents (Elt F) → (⟨S16x1x4096, .i32⟩ : BufTy).Contents (Elt F) → (⟨S16x1x4096, .i32⟩ : BufTy).Contents (Elt F)) ]
/-- Operations 52–57: the table read, the row vector reshaped, both spread over the volume, the difference. -/
abbrev opsK : List (HloOp τ sig (Elt F)) :=
  [ unary main_v32 main_v33 (broadcastInDim S16x1x4096x1 ![0, 1, 2] bcast_S16x1x4096_S16x1x4096x1_0_1_2 : (⟨S16x1x4096, .i32⟩ : BufTy).Contents (Elt F) → (⟨S16x1x4096x1, .i32⟩ : BufTy).Contents (Elt F)),
    binary main_arg3 main_v33 main_v34 ((fun x i => Host.gather gather_S1025_S16x1x4096x1_S16x1x4096_n_0_n_n_0_3_1 x i) : (⟨S1025, .f32⟩ : BufTy).Contents (Elt F) → (⟨S16x1x4096x1, .i32⟩ : BufTy).Contents (Elt F) → (⟨S16x1x4096, .f32⟩ : BufTy).Contents (Elt F)),
    reshape main_arg4 main_v35 rfl shapeCasts_S1024_S1x1024x1,
    unary main_v34 main_v36 (broadcastInDim S16x1024x4096 ![0, 1, 2] bcast_S16x1x4096_S16x1024x4096_0_1_2 : (⟨S16x1x4096, .f32⟩ : BufTy).Contents (Elt F) → (⟨S16x1024x4096, .f32⟩ : BufTy).Contents (Elt F)),
    unary main_v35 main_v37 (broadcastInDim S16x1024x4096 ![0, 1, 2] bcast_S1x1024x1_S16x1024x4096_0_1_2 : (⟨S1x1024x1, .f32⟩ : BufTy).Contents (Elt F) → (⟨S16x1024x4096, .f32⟩ : BufTy).Contents (Elt F)),
    binary main_v36 main_v37 main_v38 (subf : (⟨S16x1024x4096, .f32⟩ : BufTy).Contents (Elt F) → (⟨S16x1024x4096, .f32⟩ : BufTy).Contents (Elt F) → (⟨S16x1024x4096, .f32⟩ : BufTy).Contents (Elt F)) ]

theorem ops_split : (ops : List (HloOp τ sig (Elt F))) = opsA ++ (opsC ++ (opsD ++ (opsE ++ (opsG ++ (opsH ++ opsK))))) := rfl

/-! ### Operations 1–26 -/

theorem opsA_v16 (W : Valuation τ sig (Elt F)) :
    after opsA W (main_v16 : DevRef τ sig) = Spec.col (Spec.wrap 16#32 (W (main_arg2 : DevRef τ sig))) := by
  after_results_simp
  rfl
theorem opsA_v17 (W : Valuation τ sig (Elt F)) :
    after opsA W (main_v17 : DevRef τ sig) = Spec.col (Spec.wrap 1024#32 (W (main_arg0 : DevRef τ sig))) := by
  after_results_simp
  rfl
theorem opsA_v18 (W : Valuation τ sig (Elt F)) :
    after opsA W (main_v18 : DevRef τ sig) = Spec.col (Spec.wrap 4096#32 (W (main_arg1 : DevRef τ sig))) := by
  after_results_simp
  rfl
theorem opsA_v0 (W : Valuation τ sig (Elt F)) :
    after opsA W (main_v0 : DevRef τ sig) = broadcastInDim S16x1024x4096 ![] bcast_S_S16x1024x4096 (constantI S_ 32 4294967295#32) := by
  after_results_simp
theorem opsA_arg0 (W : Valuation τ sig (Elt F)) : after opsA W (main_arg0 : DevRef τ sig) = W (main_arg0 : DevRef τ sig) := by
  after_results_simp
theorem opsA_arg3 (W : Valuation τ sig (Elt F)) : after opsA W (main_arg3 : DevRef τ sig) = W (main_arg3 : DevRef τ sig) := by
  after_results_simp
theorem opsA_arg4 (W : Valuation τ sig (Elt F)) : after opsA W (main_arg4 : DevRef τ sig) = W (main_arg4 : DevRef τ sig) := by
  after_results_simp

/-! ### Operations 27–28 -/

attribute [local irreducible] Host.scatter concatenate in
theorem opsC_v20 (W : Valuation τ sig (Elt F)) :
    after opsC W (main_v20 : DevRef τ sig)
      = Host.scatter scatter_S16x1024x4096_S500000x3_S500000_n_012_012_1 (fun _ b => b) (W (main_v0 : DevRef τ sig))
          (concatenate S500000x3 1
            [⟨S500000x1, W (main_v16 : DevRef τ sig)⟩, ⟨S500000x1, W (main_v17 : DevRef τ sig)⟩, ⟨S500000x1, W (main_v18 : DevRef τ sig)⟩]
            concatenates_S500000x1_S500000x1_S500000x1_S500000x3_d1)
          (W (main_arg0 : DevRef τ sig)) := by
  after_results
  rfl
theorem opsC_arg3 (W : Valuation τ sig (Elt F)) : after opsC W (main_arg3 : DevRef τ sig) = W (main_arg3 : DevRef τ sig) := by
  after_results_simp
theorem opsC_arg4 (W : Valuation τ sig (Elt F)) : after opsC W (main_arg4 : DevRef τ sig) = W (main_arg4 : DevRef τ sig) := by
  after_results_simp

/-! ### Operations 29–34 -/

attribute [local irreducible] Host.reduce2 in
theorem opsD_v22 (W : Valuation τ sig (Elt F)) :
    after opsD W (main_v22 : DevRef τ sig)
      = broadcastInDim S16x1x4096 ![0, 2] bcast_S16x4096_S16x1x4096_0_2 (Spec.amax (W (main_v20 : DevRef τ sig))) := by
  after_results_simp
  rfl
theorem opsD_v20 (W : Valuation τ sig (Elt F)) : after opsD W (main_v20 : DevRef τ sig) = W (main_v20 : DevRef τ sig) := by
  after_results_simp
theorem opsD_arg3 (W : Valuation τ sig (Elt F)) : after opsD W (main_arg3 : DevRef τ sig) = W (main_arg3 : DevRef τ sig) := by
  after_results_simp
theorem opsD_arg4 (W : Valuation τ sig (Elt F)) : after opsD W (main_arg4 : DevRef τ sig) = W (main_arg4 : DevRef τ sig) := by
  after_results_simp

/-! ### Operations 35–40 -/

attribute [local irreducible] Host.reduce in
theorem opsE_v26 (W : Valuation τ sig (Elt F)) :
    after opsE W (main_v26 : DevRef τ sig)
      = broadcastInDim S16x1x4096 ![0, 2] bcast_S16x4096_S16x1x4096_0_2 (Spec.empt (W (main_v20 : DevRef τ sig))) := by
  after_results_simp
  rfl
theorem opsE_v22 (W : Valuation τ sig (Elt F)) : after opsE W (main_v22 : DevRef τ sig) = W (main_v22 : DevRef τ sig) := by
  after_results_simp
theorem opsE_arg3 (W : Valuation τ sig (Elt F)) : after opsE W (main_arg3 : DevRef τ sig) = W (main_arg3 : DevRef τ sig) := by
  after_results_simp
theorem opsE_arg4 (W : Valuation τ sig (Elt F)) : after opsE W (main_arg4 : DevRef τ sig) = W (main_arg4 : DevRef τ sig) := by
  after_results_simp

/-! ### Operations 41–44 -/

theorem opsG_v27 (W : Valuation τ sig (Elt F)) :
    after opsG W (main_v27 : DevRef τ sig)
      = select (W (main_v26 : DevRef τ sig) : IVec S16x1x4096 1)
          (broadcastInDim S16x1x4096 ![] bcast_S_S16x1x4096 (id (constantI S_ 32 1024#32)))
          (W (main_v22 : DevRef τ sig) : IVec S16x1x4096 32) := by
  after_results_simp
  rfl
theorem opsG_arg3 (W : Valuation τ sig (Elt F)) : after opsG W (main_arg3 : DevRef τ sig) = W (main_arg3 : DevRef τ sig) := by
  after_results_simp
theorem opsG_arg4 (W : Valuation τ sig (Elt F)) : after opsG W (main_arg4 : DevRef τ sig) = W (main_arg4 : DevRef τ sig) := by
  after_results_simp

/-! ### Operations 45–51 -/

theorem opsH_v32 (W : Valuation τ sig (Elt F)) :
    after opsH W (main_v32 : DevRef τ sig) = Spec.widx (W (main_v27 : DevRef τ sig)) := by
  after_results_simp
  rfl
theorem opsH_arg3 (W : Valuation τ sig (Elt F)) : after opsH W (main_arg3 : DevRef τ sig) = W (main_arg3 : DevRef τ sig) := by
  after_results_simp
theorem opsH_arg4 (W : Valuation τ sig (Elt F)) : after opsH W (main_arg4 : DevRef τ sig) = W (main_arg4 : DevRef τ sig) := by
  after_results_simp

/-! ### Operations 52–57 -/

attribute [local irreducible] Host.gather in
theorem opsK_v38 (W : Valuation τ sig (Elt F)) :
    after opsK W (main_v38 : DevRef τ sig)
      = subf (broadcastInDim S16x1024x4096 ![0, 1, 2] bcast_S16x1x4096_S16x1024x4096_0_1_2
            (Spec.gath (W (main_arg3 : DevRef τ sig)) (W (main_v32 : DevRef τ sig))))
          (broadcastInDim S16x1024x4096 ![0, 1, 2] bcast_S1x1024x1_S16x1024x4096_0_1_2
            (shapeCast S1x1024x1 (W (main_arg4 : DevRef τ sig)) shapeCasts_S1024_S1x1024x1)) := by
  after_results_simp
  rfl

/-! ## The line read at the result and at the arguments -/

attribute [local irreducible] Host.reduce Host.reduce2 Host.gather Host.scatter concatenate in
/-- The fold of the 57 operations at the result buffer is `Spec.rRes` of the five arguments: stretch by stretch from
    the last, each read is what the stretch before left there; what remains is `Spec.rRes` with its stages unfolded. -/
theorem out_eq (V : Valuation τ sig (Elt F)) :
    after ops V (main_v38 : DevRef τ sig)
      = Spec.rRes (F := F) (V (main_arg0 : DevRef τ sig)) (V (main_arg1 : DevRef τ sig)) (V (main_arg2 : DevRef τ sig))
          (V (main_arg3 : DevRef τ sig)) (V (main_arg4 : DevRef τ sig)) := by
  rw [ops_split, after_append, after_append, after_append, after_append, after_append, after_append]
  rw [opsK_v38, opsH_v32, opsH_arg3, opsH_arg4, opsG_v27, opsG_arg3, opsG_arg4, opsE_v26, opsE_v22, opsE_arg3, opsE_arg4,
    opsD_v22, opsD_v20, opsD_arg3, opsD_arg4, opsC_v20, opsC_arg3, opsC_arg4,
    opsA_v16, opsA_v17, opsA_v18, opsA_v0, opsA_arg0, opsA_arg3, opsA_arg4]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of @main
    terminates with the result buffer at `Spec.rRes` of the five argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = Spec.rRes (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v38).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RRun

end
-- ==== Proof.KSpec.lean ====
/-
  The kernel program's result as a pure function of its five argument arrays, stage by stage.
  Each point `n` falls in the bin `f n * 4096 + theta n` of 16 * 4096 (channel, angle) bins; per bin the greatest
  range bin `rho n` of its points is kept (`-1` for a bin without points, then replaced by `1024`), the table `rp`
  is read there, and the result at (channel, range, angle) is the bin's table entry less the range axis' entry of `r`.
-/
import proofs.«427130_j11433202942091_3_alg».proof.Proof.Gen.KernelIdeal
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- The flat (channel, angle) bin of each point: `f * 4096 + theta`. -/
def flat (theta f : IVec S500000 32) : IVec S500000 32 :=
  addi (muli f (broadcastInDim S500000 ![] bcast_S_S500000 (constantI S_ 32 4096#32))) theta

/-- A bin word as indexing reads it on the 65536 bins: a negative word counts from the end. -/
def wrapFlat (x : IVec S500000 32) : IVec S500000 32 :=
  select (cmpi .slt x (broadcastInDim S500000 ![] bcast_S_S500000 (constantI S_ 32 0#32)))
    (addi x (broadcastInDim S500000 ![] bcast_S_S500000 (constantI S_ 32 65536#32))) x

/-- Per bin the greatest range bin among the bin's points, from `-1`. -/
def segmax (rho theta f : IVec S500000 32) : IVec S65536 32 :=
  Host.scatter scatter_S65536_S500000x1_S500000_n_0_0_1 IntOp.maxsi
    (broadcastInDim S65536 ![] bcast_S_S65536 (constantI S_ 32 4294967295#32))
    (broadcastInDim S500000x1 ![0] bcast_S500000_S500000x1_0 (wrapFlat (flat theta f))) rho

/-- A bin without points reads position `1024`. -/
def fillEmpty (s : IVec S65536 32) : IVec S65536 32 :=
  select (cmpi .slt s (broadcastInDim S65536 ![] bcast_S_S65536 (constantI S_ 32 0#32)))
    (broadcastInDim S65536 ![] bcast_S_S65536 (id (constantI S_ 32 1024#32))) s

/-- A table position as indexing reads it on the table's 1025 entries. -/
def wrapIdx (s : IVec S65536 32) : IVec S65536 32 :=
  select (cmpi .slt s (broadcastInDim S65536 ![] bcast_S_S65536 (constantI S_ 32 0#32)))
    (addi s (broadcastInDim S65536 ![] bcast_S_S65536 (constantI S_ 32 1025#32))) s

/-- The table read at each bin's position. -/
def take (rp : FVec F S1025 .f32) (w : IVec S65536 32) : FVec F S65536 .f32 :=
  Host.gather gather_S1025_S65536x1_S65536_n_0_n_n_0_1_1 rp (broadcastInDim S65536x1 ![0] bcast_S65536_S65536x1_0 w)

/-- The bins' table entries laid out as 16 channels by 4096 angles. -/
def ids (rho theta f : IVec S500000 32) (rp : FVec F S1025 .f32) : FVec F S16x4096 .f32 :=
  shapeCast S16x4096 (take rp (wrapIdx (fillEmpty (segmax rho theta f)))) shapeCasts_S65536_S16x4096

/-- `r` as a 1 by 1024 by 1 array along the range axis. -/
def rcol (r : FVec F S1024 .f32) : FVec F S1x1024x1 .f32 := shapeCast S1x1024x1 r shapeCasts_S1024_S1x1024x1

/-- The kernel's result at (channel, range, angle): the bin's table entry less the range axis' entry of `r`. -/
def kRes (rho theta f : IVec S500000 32) (rp : FVec F S1025 .f32) (r : FVec F S1024 .f32) : FVec F S16x1024x4096 .f32 :=
  fun i => FloatOps.subf (ids rho theta f rp (ix2 (i 0) (i 2))) (rcol r (ix3 (0 : Fin 1) (i 1) (0 : Fin 1)))

end Cert.KernelIdeal.Spec

end
-- ==== Proof.KRun.lean ====
/-
  The kernel program's run: every weakly fair execution of its @main terminates with the result array at
  `Spec.kRes` of the argument arrays and the arguments unchanged.
-/
import proofs.«427130_j11433202942091_3_alg».proof.Proof.KSpec
import proofs.«427130_j11433202942091_3_alg».proof.Proof.Gen.KernelIdeal.Value

noncomputable section

namespace Cert.KernelIdeal.KRun

open Cert.KernelIdeal Cert.KernelIdeal.Gen Idealize.ShloMosaic Idealize.ShloMosaic.TcCoe Idealize.SL.Sem

variable {F : FTy → Type} [FloatOps F]

section Steps

open Idealize.ShloMosaic.StableHlo Idealize.ShloMosaic.ValueIdx

variable (m : (ℓ : Loc nD τ sig) → Buf (Elt F) ℓ) (ρ : Dev nD → PrngReg)

/-! ## The host operations before the region, in four stretches

The 33 operations run in order. The bins' flat index (buffer `main_v2`), the per-bin greatest range bin (`main_v10`) and
the positions with the empty bins filled (`main_v13`) are each read several times downstream, so the fold is read one
stretch at a time, from ANY contents `W` at the stretch's start: a stretch's result is a function of a few buffers of `W`,
and the argument buffers pass through it. -/

/-- All host operations before the region, in order. -/
abbrev hostAll : List (HloOp τ sig (Elt F)) := List.flatten [hostOps0, hostOps0_1, hostOps0_2]
/-- Up to the bins' flat index. -/
abbrev opsA : List (HloOp τ sig (Elt F)) := (hostAll (F := F)).take 4
/-- Up to the per-bin greatest range bin. -/
abbrev opsB : List (HloOp τ sig (Elt F)) := ((hostAll (F := F)).drop 4).take 11
/-- Up to the positions with the empty bins filled. -/
abbrev opsC : List (HloOp τ sig (Elt F)) := ((hostAll (F := F)).drop 15).take 7
/-- The table read and the two reshapes. -/
abbrev opsD : List (HloOp τ sig (Elt F)) := (hostAll (F := F)).drop 22

/-- The fold over all of them is the fold over the four stretches in turn. -/
theorem after_split (W : Valuation τ sig (Elt F)) :
    after (hostAll (F := F)) W = after opsD (after opsC (after opsB (after opsA W))) := rfl

/-- Spells a stretch out as the list of its operations. -/
local macro "stretch_ops" : tactic =>
  `(tactic| simp only [opsA, opsB, opsC, opsD, hostAll, hostOps0, hostOps0_1, hostOps0_2, List.flatten_cons, List.flatten_nil,
    List.append_nil, List.cons_append, List.nil_append, List.take_succ_cons, List.take_zero, List.drop_succ_cons, List.drop_zero])

/-- The bins' flat index after the first stretch. -/
theorem stageA_v2 (W : Valuation τ sig (Elt F)) :
    after (opsA (F := F)) W (Proc.devRef .tc main_v2)
      = Spec.flat (W (Proc.devRef .tc main_arg1)) (W (Proc.devRef .tc main_arg2)) := by
  stretch_ops; after_results; rfl
theorem stageA_arg0 (W : Valuation τ sig (Elt F)) :
    after (opsA (F := F)) W (Proc.devRef .tc main_arg0) = W (Proc.devRef .tc main_arg0) := by
  stretch_ops; after_results
theorem stageA_arg3 (W : Valuation τ sig (Elt F)) :
    after (opsA (F := F)) W (Proc.devRef .tc main_arg3) = W (Proc.devRef .tc main_arg3) := by
  stretch_ops; after_results
theorem stageA_arg4 (W : Valuation τ sig (Elt F)) :
    after (opsA (F := F)) W (Proc.devRef .tc main_arg4) = W (Proc.devRef .tc main_arg4) := by
  stretch_ops; after_results

attribute [local irreducible] Host.scatter Host.gather in
/-- The per-bin greatest range bin after the second stretch, from the flat index and the range bins. -/
theorem stageB_v10 (W : Valuation τ sig (Elt F)) :
    after (opsB (F := F)) W (Proc.devRef .tc main_v10)
      = Host.scatter scatter_S65536_S500000x1_S500000_n_0_0_1 IntOp.maxsi
          (broadcastInDim S65536 ![] bcast_S_S65536 (constantI S_ 32 4294967295#32))
          (broadcastInDim S500000x1 ![0] bcast_S500000_S500000x1_0 (Spec.wrapFlat (W (Proc.devRef .tc main_v2))))
          (W (Proc.devRef .tc main_arg0)) := by
  stretch_ops; after_results; rfl
theorem stageB_arg3 (W : Valuation τ sig (Elt F)) :
    after (opsB (F := F)) W (Proc.devRef .tc main_arg3) = W (Proc.devRef .tc main_arg3) := by
  stretch_ops; after_results
theorem stageB_arg4 (W : Valuation τ sig (Elt F)) :
    after (opsB (F := F)) W (Proc.devRef .tc main_arg4) = W (Proc.devRef .tc main_arg4) := by
  stretch_ops; after_results

/-- The positions with the empty bins filled, after the third stretch. -/
theorem stageC_v13 (W : Valuation τ sig (Elt F)) :
    after (opsC (F := F)) W (Proc.devRef .tc main_v13) = Spec.fillEmpty (W (Proc.devRef .tc main_v10)) := by
  stretch_ops; after_results; rfl
theorem stageC_arg3 (W : Valuation τ sig (Elt F)) :
    after (opsC (F := F)) W (Proc.devRef .tc main_arg3) = W (Proc.devRef .tc main_arg3) := by
  stretch_ops; after_results
theorem stageC_arg4 (W : Valuation τ sig (Elt F)) :
    after (opsC (F := F)) W (Proc.devRef .tc main_arg4) = W (Proc.devRef .tc main_arg4) := by
  stretch_ops; after_results

attribute [local irreducible] Host.scatter Host.gather in
/-- The table read at the positions and laid out 16 by 4096, after the last stretch. -/
theorem stageD_v21 (W : Valuation τ sig (Elt F)) :
    after (opsD (F := F)) W (Proc.devRef .tc main_v21)
      = shapeCast S16x4096 (Spec.take (F := F) (W (Proc.devRef .tc main_arg3)) (Spec.wrapIdx (W (Proc.devRef .tc main_v13))))
          shapeCasts_S65536_S16x4096 := by
  stretch_ops; after_results; rfl
/-- The last argument laid out 1 by 1024 by 1, after the last stretch. -/
theorem stageD_v22 (W : Valuation τ sig (Elt F)) :
    after (opsD (F := F)) W (Proc.devRef .tc main_v22) = Spec.rcol (F := F) (W (Proc.devRef .tc main_arg4)) := by
  stretch_ops; after_results; rfl

attribute [local irreducible] Host.scatter Host.gather in
/-- The region finds the first window's array at the bins' table entries of the first four arguments. -/
theorem v21_eq (c : Dev nD) :
    (V m c main_v21 : S16x4096.Idx → Elt F .f32)
      = Spec.ids (F := F) (m ((c.tc : Thread nD τ).loc main_arg0)) (m ((c.tc : Thread nD τ).loc main_arg1))
          (m ((c.tc : Thread nD τ).loc main_arg2)) (m ((c.tc : Thread nD τ).loc main_arg3)) := by
  show after (hostAll (F := F)) (fun b => m (c, b)) (Proc.devRef .tc main_v21) = _
  rw [after_split, stageD_v21, stageC_v13, stageC_arg3, stageB_v10, stageB_arg3, stageA_v2, stageA_arg0, stageA_arg3]
  rfl

/-- The region finds the second window's array at the last argument laid out along the range axis. -/
theorem v22_eq (c : Dev nD) :
    (V m c main_v22 : S1x1024x1.Idx → Elt F .f32) = Spec.rcol (F := F) (m ((c.tc : Thread nD τ).loc main_arg4)) := by
  show after (hostAll (F := F)) (fun b => m (c, b)) (Proc.devRef .tc main_v22) = _
  rw [after_split, stageD_v22, stageC_arg4, stageB_arg4, stageA_arg4]

/-! ## The block a point leaves -/

theorem zero2 : (![0, 0] : Fin 2 → Nat) = fun _ => 0 := funext fun a => by
  match a with | ⟨0, _⟩ => rfl | ⟨1, _⟩ => rfl
theorem zero3 : (![0, 0, 0] : Fin 3 → Nat) = fun _ => 0 := funext fun a => by
  match a with | ⟨0, _⟩ => rfl | ⟨1, _⟩ => rfl | ⟨2, _⟩ => rfl

/-- Over arbitrary input blocks: the output block at (channel, range, lane) is the first block's entry at
    (channel, lane) less the second's at range. -/
theorem out_apply (P0 : Vec F S16x128 .f32) (P1 : Vec F S1x1024x1 .f32) (y : S16x1024x128.Idx) :
    out0_2 P0 P1 y = FloatOps.subf (P0 (Value.ix2_0 y)) (P1 (Value.ix2_1 y)) := by
  unfold out0_2
  rw [Value.canon2_eq]
  simp only [View.ld_unit_zero (S := S16x128) zero2, View.ld_unit_zero (S := S1x1024x1) zero3]

/-- The block indices of the three windows at grid point `t`: the angle axis moves with the point, 128 angles a point; every
    other axis stays at block 0. -/
theorem index_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = t.val :=
  (by decide +kernel : ∀ t : Fin grid0.N, _)

/-- The first window's block at point `t` is columns `128 t … 128 t + 127` of the 16 by 4096 array. -/
theorem blk0_apply (c : Dev nD) (t : Fin cfg0.N) (z : S16x128.Idx) (k : S16x4096.Idx)
    (hk0 : (k 0).val = (z 0).val) (hk1 : (k 1).val = t.val * 128 + (z 1).val) :
    (iblk m c 0 t : Vec F S16x128 .f32) z = (V m c main_v21 : S16x4096.Idx → Elt F .f32) k := by
  obtain ⟨e0, e1, -⟩ := index_facts t
  unfold iblk
  rw [View.read_apply]
  show V m c main_v21 _ = V m c main_v21 _
  congr 1
  funext a; apply Fin.ext
  match a with
  | ⟨0, _⟩ => show win0_0.index t (0 : Fin 2) * 16 + 1 * (z 0).val = (k 0).val; rw [e0, hk0]; omega
  | ⟨1, _⟩ => show win0_0.index t (1 : Fin 2) * 128 + 1 * (z 1).val = (k 1).val; rw [e1, hk1]; omega

/-- The second window's block at every point is the whole 1 by 1024 by 1 array. -/
theorem blk1_apply (c : Dev nD) (t : Fin cfg0.N) (z : S1x1024x1.Idx) (k : S1x1024x1.Idx)
    (hk0 : (k 0).val = (z 0).val) (hk1 : (k 1).val = (z 1).val) (hk2 : (k 2).val = (z 2).val) :
    (iblk m c 1 t : Vec F S1x1024x1 .f32) z = (V m c main_v22 : S1x1024x1.Idx → Elt F .f32) k := by
  obtain ⟨-, -, e0, e1, e2, -⟩ := index_facts t
  unfold iblk
  rw [View.read_apply]
  show V m c main_v22 _ = V m c main_v22 _
  congr 1
  funext a; apply Fin.ext
  match a with
  | ⟨0, _⟩ => show win0_1.index t (0 : Fin 3) * 1 + 1 * (z 0).val = (k 0).val; rw [e0, hk0]; omega
  | ⟨1, _⟩ => show win0_1.index t (1 : Fin 3) * 1024 + 1 * (z 1).val = (k 1).val; rw [e1, hk1]; omega
  | ⟨2, _⟩ => show win0_1.index t (2 : Fin 3) * 1 + 1 * (z 2).val = (k 2).val; rw [e2, hk2]; omega

/-- What point `t` writes back is its block of `Spec.kRes` of the argument arrays. -/
theorem flushed_eq (c : Dev nD) (t : Fin cfg0.N) :
    (dats m 0 c).flushed 2 t = ((cfg0.win 2).blk t).view.read (Elt F)
      (Spec.kRes (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  rw [Value.flushed2]
  obtain ⟨-, -, -, -, -, e0, e1, e2⟩ := index_facts t
  funext y
  rw [View.read_apply]
  show out0_2 (iblk m c 0 t) (iblk m c 1 t) y = Spec.kRes _ _ _ _ _ (((cfg0.win 2).blk t).view.emb y)
  rw [out_apply]
  unfold Spec.kRes
  rw [← v21_eq m c, ← v22_eq m c]
  refine congrArg₂ FloatOps.subf ?_ ?_
  · refine blk0_apply m c t _ _ ?_ ?_
    · show win0_2.index t (0 : Fin 3) * 16 + 1 * (y 0).val = (y 0).val; rw [e0]; omega
    · show win0_2.index t (2 : Fin 3) * 128 + 1 * (y 2).val = t.val * 128 + (y 2).val; rw [e2]; omega
  · refine blk1_apply m c t _ _ ?_ ?_ ?_
    · rfl
    · show win0_2.index t (1 : Fin 3) * 1024 + 1 * (y 1).val = (y 1).val; rw [e1]; omega
    · rfl

/-- An index of the result array is in point `t`'s block iff each coordinate is in the block's range on its axis. -/
theorem mem_blk (t : Fin cfg0.N) (i : S16x1024x4096.Idx) :
    i ∈ ((cfg0.win 2).blk t).view.set ↔ ∀ a : Fin 3, win0_2.index t a * S16x1024x128.size a ≤ (i a).val ∧ (i a).val < win0_2.index t a * S16x1024x128.size a + S16x1024x128.size a := by
  show i ∈ ((View.whole main_v23).slice (win0_2.rect t)).set ↔ _
  rw [View.set_slice_whole, Rect.mem_set_unit]
  exact Iff.rfl

/-- Every block index along the angle axis is some point's. -/
theorem index_onto : ∀ q : Fin 32, ∃ t : Fin cfg0.N, win0_2.index t = ![0, 0, q.val] :=
  (by decide +kernel : ∀ q : Fin 32, ∃ t : Fin grid0.N, win0_2.index t = ![0, 0, q.val])

/-- Every index of the result array lies in the block of the point its angle falls to: angle / 128. -/
theorem cover (i : S16x1024x4096.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 4096 := (i 2).isLt
  obtain ⟨t, ht⟩ := index_onto ⟨(i 2).val / 128, by omega⟩
  have q0 : win0_2.index t (0 : Fin 3) = 0 := congrFun ht 0
  have q1 : win0_2.index t (1 : Fin 3) = 0 := congrFun ht 1
  have q2 : win0_2.index t (2 : Fin 3) = (i 2).val / 128 := congrFun ht 2
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- So the result array ends holding `Spec.kRes` of the argument arrays. -/
theorem final (c : Dev nD) :
    (dats m 0 c).arrAt 2 cfg0.N
      = Spec.kRes (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (dats m 0 c).arrAt_eq_of_cover 2 _ (fun t _ => flushed_eq m c t) cover

end Steps

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = Spec.kRes (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (Value.run_blocks m ρ)

end Cert.KernelIdeal.KRun

end
-- ==== Proof.PreRanges.lean ====
/-
  What the precondition says of the three index arrays: every point's range bin lies in [0, 1024), its angle bin in
  [0, 4096) and its channel in [0, 16), the words read as signed integers.
-/
import proofs.«427130_j11433202942091_3_alg».proof.Proof.Gen.Pre_finite_inputs
import Idealize.ShloMosaic.Lib.ReduceAll

noncomputable section

namespace Cert.Pre_finite_inputs.Ranges

open Idealize.ShloMosaic Cert.Pre_finite_inputs Cert.Pre_finite_inputs.Gen

variable {F : FTy → Type} [FloatOps F]

/-- The scalar shape has a single index (the empty tuple of coordinates). -/
private instance : Subsingleton S_.Idx := ⟨fun _ _ => funext fun d => d.elim0⟩

/-- A conjunction of two one-bit scalars is 1 at an index exactly when both are 1 there. -/
private theorem andi_one (a b : IVec S_ 1) (j : S_.Idx) : andi a b j = 1#1 ↔ a j = 1#1 ∧ b j = 1#1 :=
  IntOp.andi_eq_one

/-- If "every element of `x` compares to the constant `c` by `p`", reduced by `and` to a scalar, is 1, then the
    comparison word of `x n` with `c` is 1 at each point `n`: the reduce by `and` that is 1 met only 1s, the elementwise
    comparison at `n` is the comparison of the words at `n`, and a broadcast scalar constant reads `c` everywhere. -/
private theorem all_cmpi (p : CmpIPredicate) (x : IVec S500000 32) (c : BitVec 32)
    (hb : S_.BroadcastsInDim S500000 (![] : Fin 0 → Fin S500000.rank)) (hr : S500000.ReducesTo [0] S_)
    (hu : 0 < S_.numel) (init : IVec S_ 1) (j : S_.Idx)
    (e : Host.reduce IntOp.andi (cmpi p x (broadcastInDim S500000 ![] hb (constantI S_ 32 c))) init hr hu j = 1#1)
    (n : S500000.Idx) : IntOp.cmpi p (x n) c = 1#1 :=
  Host.reduce_andi_all (cmpi p x (broadcastInDim S500000 ![] hb (constantI S_ 32 c))) init hr hu j e n

theorem ranges (rho theta f : IVec S500000 32) (rp : FVec F S1025 .f32) (r : FVec F S1024 .f32)
    (h : fn (F := F) rho theta f rp r = fun _ => 1#1) (n : S500000.Idx) :
    (0 ≤ (rho n).toInt ∧ (rho n).toInt < 1024) ∧ (0 ≤ (theta n).toInt ∧ (theta n).toInt < 4096)
      ∧ (0 ≤ (f n).toInt ∧ (f n).toInt < 16) := by
  -- the precondition at the scalar's one index, its chain of operations laid open
  have h0 := congrFun h (fun a => a.elim0)
  dsimp only [fn, fn_part1, fn_part2] at h0
  -- the conjunction of the eight one-bit scalars is 1: each of them is
  simp only [andi_one] at h0
  obtain ⟨⟨⟨⟨⟨⟨⟨-, -⟩, hr0⟩, hr1⟩, ht0⟩, ht1⟩, hf0⟩, hf1⟩ := h0
  -- each of the six integer ones is an "all" of a signed comparison with a constant, read at the point n
  have z : (0#32 : BitVec 32).toInt = 0 := by decide
  have e1024 : (1024#32 : BitVec 32).toInt = 1024 := by decide
  have e4096 : (4096#32 : BitVec 32).toInt = 4096 := by decide
  have e16 : (16#32 : BitVec 32).toInt = 16 := by decide
  have r0 := IntOp.cmpi_sge.1 (all_cmpi _ _ _ _ _ _ _ _ hr0 n)
  have r1 := IntOp.cmpi_slt.1 (all_cmpi _ _ _ _ _ _ _ _ hr1 n)
  have t0 := IntOp.cmpi_sge.1 (all_cmpi _ _ _ _ _ _ _ _ ht0 n)
  have t1 := IntOp.cmpi_slt.1 (all_cmpi _ _ _ _ _ _ _ _ ht1 n)
  have f0 := IntOp.cmpi_sge.1 (all_cmpi _ _ _ _ _ _ _ _ hf0 n)
  have f1 := IntOp.cmpi_slt.1 (all_cmpi _ _ _ _ _ _ _ _ hf1 n)
  rw [z] at r0 t0 f0
  rw [e1024] at r1
  rw [e4096] at t1
  rw [e16] at f1
  exact ⟨⟨r0, r1⟩, ⟨t0, t1⟩, ⟨f0, f1⟩⟩

end Cert.Pre_finite_inputs.Ranges

end
-- ==== Proof.LibFold.lean ====
/-
  Left folds that update one cell of a table at a time (the fold a scatter is), and plain left folds (the fold a
  reduction is), read through MEMBERSHIP only: what a cell ends at is its first value or the value of some entry that
  names the cell; a combiner that dominates both its arguments leaves a cell above every entry that names it; a
  combiner that keeps its second argument leaves a named cell at the value of an entry that names it. Nothing here
  depends on the order of the entries.
-/
import Idealize.ShloMosaic.PureOps

namespace Cert.Lib.Fold

open Idealize.ShloMosaic

section Cells

variable {ι κ α : Type} [DecidableEq κ]

/-- One update: entry `n` combines its value `v n` into the cell `g n` names, if it names one. -/
def step (f : α → α → α) (g : ι → Option κ) (v : ι → α) (r : κ → α) (n : ι) : κ → α :=
  match g n with
  | some i => fun i' => if i' = i then f (r i) (v n) else r i'
  | none => r

variable {f : α → α → α} {g : ι → Option κ} {v : ι → α}

theorem step_hit (r : κ → α) {n : ι} {b : κ} (h : g n = some b) : step f g v r n b = f (r b) (v n) := by
  unfold step; rw [h]; exact if_pos rfl

theorem step_miss (r : κ → α) {n : ι} {b : κ} (h : g n ≠ some b) : step f g v r n b = r b := by
  unfold step
  cases hg : g n with
  | none => rfl
  | some i =>
    have hb : b ≠ i := fun e => h (by rw [hg, e])
    exact if_neg hb

/-- A cell ends at its first value or at the value of some entry that names it, when the combiner returns one of
    its two arguments. -/
theorem foldl_eq_init_or_hit (hsel : ∀ a b, f a b = a ∨ f a b = b) (l : List ι) (r : κ → α) (b : κ) :
    (l.foldl (step f g v) r) b = r b ∨ ∃ n ∈ l, g n = some b ∧ (l.foldl (step f g v) r) b = v n := by
  induction l generalizing r with
  | nil => exact Or.inl rfl
  | cons n l ih =>
    rw [List.foldl_cons]
    rcases ih (step f g v r n) with h | ⟨n', hn', hg', he'⟩
    · by_cases hg : g n = some b
      · rw [step_hit r hg] at h
        rcases hsel (r b) (v n) with e | e
        · exact Or.inl (h.trans e)
        · exact Or.inr ⟨n, List.mem_cons_self, hg, h.trans e⟩
      · exact Or.inl (h.trans (step_miss r hg))
    · exact Or.inr ⟨n', List.mem_cons_of_mem _ hn', hg', he'⟩

/-- A cell no entry names keeps its first value. -/
theorem foldl_of_no_hit (hsel : ∀ a b, f a b = a ∨ f a b = b) (l : List ι) (r : κ → α) (b : κ)
    (h : ∀ n ∈ l, g n ≠ some b) : (l.foldl (step f g v) r) b = r b := by
  rcases foldl_eq_init_or_hit (g := g) (v := v) hsel l r b with e | ⟨n, hn, hg, _⟩
  · exact e
  · exact absurd hg (h n hn)

/-- Under a reflexive transitive relation the combiner respects (its result is above both arguments), a cell ends
    above its first value and above the value of every entry that names it. -/
theorem foldl_dominates (le : α → α → Prop) (hrefl : ∀ a, le a a) (htrans : ∀ a b c, le a b → le b c → le a c)
    (hl : ∀ a b, le a (f a b)) (hr : ∀ a b, le b (f a b)) (l : List ι) (r : κ → α) (b : κ) :
    le (r b) ((l.foldl (step f g v) r) b) ∧ ∀ n ∈ l, g n = some b → le (v n) ((l.foldl (step f g v) r) b) := by
  induction l generalizing r with
  | nil => exact ⟨hrefl _, fun _ h => absurd h List.not_mem_nil⟩
  | cons n l ih =>
    rw [List.foldl_cons]
    obtain ⟨h0, hall⟩ := ih (step f g v r n)
    have hstep : le (r b) (step f g v r n b) := by
      by_cases hg : g n = some b
      · rw [step_hit r hg]; exact hl _ _
      · rw [step_miss r hg]; exact hrefl _
    refine ⟨htrans _ _ _ hstep h0, fun n' hn' hg' => ?_⟩
    rcases List.mem_cons.mp hn' with rfl | hn'
    · have : le (v n') (step f g v r n' b) := by rw [step_hit r hg']; exact hr _ _
      exact htrans _ _ _ this h0
    · exact hall n' hn' hg'

/-- With the combiner that keeps the incoming value, a cell some entry names ends at the value of an entry that
    names it. -/
theorem foldl_set_hit (l : List ι) (r : κ → α) (b : κ) (h : ∃ n ∈ l, g n = some b) :
    ∃ n ∈ l, g n = some b ∧ (l.foldl (step (fun _ y => y) g v) r) b = v n := by
  induction l generalizing r with
  | nil => obtain ⟨n, hn, _⟩ := h; exact absurd hn List.not_mem_nil
  | cons n l ih =>
    rw [List.foldl_cons]
    by_cases hl : ∃ n' ∈ l, g n' = some b
    · obtain ⟨n', hn', hg', he'⟩ := ih (step (fun _ y => y) g v r n) hl
      exact ⟨n', List.mem_cons_of_mem _ hn', hg', he'⟩
    · have hno : ∀ n' ∈ l, g n' ≠ some b := fun n' hn' hg' => hl ⟨n', hn', hg'⟩
      obtain ⟨n0, hn0, hg0⟩ := h
      have hgn : g n = some b := by
        rcases List.mem_cons.mp hn0 with rfl | hn0
        · exact hg0
        · exact absurd hg0 (hno n0 hn0)
      refine ⟨n, List.mem_cons_self, hgn, ?_⟩
      rw [foldl_of_no_hit (fun _ y => Or.inr rfl) l _ b hno, step_hit r hgn]

end Cells

section Plain

variable {ι α : Type}

/-- A plain left fold ends at its first value or at some entry's, when the combiner returns one of its arguments. -/
theorem foldl_eq_init_or_mem {f : α → α → α} (hsel : ∀ a b, f a b = a ∨ f a b = b) (e : ι → α) (l : List ι) (init : α) :
    l.foldl (fun r n => f r (e n)) init = init ∨ ∃ n ∈ l, l.foldl (fun r n => f r (e n)) init = e n := by
  induction l generalizing init with
  | nil => exact Or.inl rfl
  | cons n l ih =>
    rw [List.foldl_cons]
    rcases ih (f init (e n)) with h | ⟨n', hn', he'⟩
    · rcases hsel init (e n) with e1 | e1
      · exact Or.inl (h.trans e1)
      · exact Or.inr ⟨n, List.mem_cons_self, h.trans e1⟩
    · exact Or.inr ⟨n', List.mem_cons_of_mem _ hn', he'⟩

/-- Under a reflexive transitive relation the combiner respects, a plain left fold ends above its first value and
    above every entry. -/
theorem foldl_above {f : α → α → α} (le : α → α → Prop) (hrefl : ∀ a, le a a) (htrans : ∀ a b c, le a b → le b c → le a c)
    (hl : ∀ a b, le a (f a b)) (hr : ∀ a b, le b (f a b)) (e : ι → α) (l : List ι) (init : α) :
    le init (l.foldl (fun r n => f r (e n)) init) ∧ ∀ n ∈ l, le (e n) (l.foldl (fun r n => f r (e n)) init) := by
  induction l generalizing init with
  | nil => exact ⟨hrefl _, fun _ h => absurd h List.not_mem_nil⟩
  | cons n l ih =>
    rw [List.foldl_cons]
    obtain ⟨h0, hall⟩ := ih (f init (e n))
    refine ⟨htrans _ _ _ (hl _ _) h0, fun n' hn' => ?_⟩
    rcases List.mem_cons.mp hn' with rfl | hn'
    · exact htrans _ _ _ (hr _ _) h0
    · exact hall n' hn'

end Plain

/-! ## A scatter is the fold of `step` -/

/-- `Host.scatter` is the left fold of `step` over the updates in order: entry `n` names the operand index its
    start index lands at, when that is inside the operand. -/
theorem scatter_eq_foldl {s si u : Shape} {w : Nat} {α : Type} (d : ScatterDims s si u) (f : α → α → α) (x : s.Idx → α)
    (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  congr 1
  funext r n
  unfold step
  dsimp only
  cases d.resultIdx? (u.rowMajor.symm n) idx with
  | none => rfl
  | some i => rfl

/-- Where an update lands: the operand index whose coordinates are its start index plus window coordinate, axis by axis. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have := congrArg Fin.val e'
      simp only at this
      have h0 := (h a).1
      omega
    · intro e
      congr 1
      funext a
      apply Fin.ext
      have := e a
      simp only
      omega
  · rename_i h
    constructor
    · intro e; exact absurd e (by simp)
    · intro e
      exfalso
      apply h
      intro a
      have := e a
      have := (i a).isLt
      omega

end Cert.Lib.Fold
-- ==== Proof.Idx.lean ====
/-
  Where the two programs' scatters land and where their gathers read, in coordinates.
  A point scatter's update `j` lands at the operand index whose coordinate on each axis is the signed word in row `j`
  of the index table, at that axis' column, when all are inside the operand. A gather from the table `rp` (one axis of
  1025 entries) reads the entry at the signed index word clamped to [0, 1024].
-/
import proofs.«427130_j11433202942091_3_alg».proof.Proof.RSpec
import proofs.«427130_j11433202942091_3_alg».proof.Proof.KSpec
import proofs.«427130_j11433202942091_3_alg».proof.Proof.LibFold
import Idealize.ShloMosaic.Lib.ValueIdx

noncomputable section

namespace Cert.Idx

open Idealize.ShloMosaic Idealize.ShloMosaic.ValueIdx Cert.Lib.Fold

/-! ## The kernel's scatter into 65536 bins and its gather -/

section K
open Cert.KernelIdeal Cert.KernelIdeal.Gen

/-- Update `j` of the bin scatter lands at bin `i` exactly when the signed word in row `j` of the one-column index
    table is `i`'s position. -/
theorem k_land (idx : IVec S500000x1 32) (j : S500000.Idx) (i : S65536.Idx) :
    scatter_S65536_S500000x1_S500000_n_0_0_1.resultIdx? j idx = some i
      ↔ (idx (ix2 (j 0) (0 : Fin 1))).toInt = ((i 0).val : Int) := by
  rw [resultIdx?_eq_some_iff]
  have hs : scatter_S65536_S500000x1_S500000_n_0_0_1.start j idx 0 = (idx (ix2 (j 0) (0 : Fin 1))).toInt := by
    unfold ScatterDims.start
    rw [dif_pos (by decide)]
    congr 2
    funext b
    match b with
    | ⟨0, _⟩ => rfl
    | ⟨1, _⟩ => rfl
  have hw : scatter_S65536_S500000x1_S500000_n_0_0_1.window j 0 = 0 := rfl
  constructor
  · intro h
    have := h 0
    rw [hs, hw] at this
    simpa using this
  · intro h a
    have ha : a = 0 := Subsingleton.elim _ _
    subst ha
    rw [hs, hw]
    simpa using h

/-- The table read at result position `j`: the entry at row `j`'s signed index word, clamped to [0, 1024]. -/
theorem k_take {α : Type} (x : S1025.Idx → α) (idx : IVec S65536x1 32) (j : S65536.Idx) :
    Host.gather gather_S1025_S65536x1_S65536_n_0_n_n_0_1_1 x idx j
      = x (ix1 ⟨min (idx (ix2 (j 0) (0 : Fin 1))).toInt.toNat 1024, by omega⟩) := by
  unfold Host.gather
  congr 1
  funext a
  have ha : a = 0 := Subsingleton.elim _ _
  subst ha
  apply Fin.ext
  show gather_S1025_S65536x1_S65536_n_0_n_n_0_1_1.start j idx 0 + gather_S1025_S65536x1_S65536_n_0_n_n_0_1_1.batchCoord j 0
      + gather_S1025_S65536x1_S65536_n_0_n_n_0_1_1.offCoord j 0 = min (idx (ix2 (j 0) (0 : Fin 1))).toInt.toNat 1024
  have hb : gather_S1025_S65536x1_S65536_n_0_n_n_0_1_1.batchCoord j 0 = 0 := rfl
  have ho : gather_S1025_S65536x1_S65536_n_0_n_n_0_1_1.offCoord j 0 = 0 := rfl
  have hs : gather_S1025_S65536x1_S65536_n_0_n_n_0_1_1.start j idx 0 = min (idx (ix2 (j 0) (0 : Fin 1))).toInt.toNat 1024 := by
    unfold GatherDims.start
    rw [dif_pos (by decide)]
    congr 3
    congr 1
    funext b
    match b with
    | ⟨0, _⟩ => rfl
    | ⟨1, _⟩ => rfl
  rw [hb, ho, hs]
  rfl

end K

/-! ## The reference's scatter into the (16, 1024, 4096) volume and its gather -/

section R
open Cert.ReferenceIdeal Cert.ReferenceIdeal.Gen

/-- Update `j` of the volume scatter lands at `i` exactly when the three signed words in row `j` of the index table
    are `i`'s three coordinates. -/
theorem r_land (idx : IVec S500000x3 32) (j : S500000.Idx) (i : S16x1024x4096.Idx) :
    scatter_S16x1024x4096_S500000x3_S500000_n_012_012_1.resultIdx? j idx = some i
      ↔ (idx (ix2 (j 0) (0 : Fin 3))).toInt = ((i 0).val : Int) ∧ (idx (ix2 (j 0) (1 : Fin 3))).toInt = ((i 1).val : Int)
        ∧ (idx (ix2 (j 0) (2 : Fin 3))).toInt = ((i 2).val : Int) := by
  rw [resultIdx?_eq_some_iff]
  have hs0 : scatter_S16x1024x4096_S500000x3_S500000_n_012_012_1.start j idx 0 = (idx (ix2 (j 0) (0 : Fin 3))).toInt := by
    unfold ScatterDims.start
    rw [dif_pos (by decide)]
    congr 2
    funext b
    match b with
    | ⟨0, _⟩ => rfl
    | ⟨1, _⟩ => rfl
  have hs1 : scatter_S16x1024x4096_S500000x3_S500000_n_012_012_1.start j idx 1 = (idx (ix2 (j 0) (1 : Fin 3))).toInt := by
    unfold ScatterDims.start
    rw [dif_pos (by decide)]
    congr 2
    funext b
    match b with
    | ⟨0, _⟩ => rfl
    | ⟨1, _⟩ => rfl
  have hs2 : scatter_S16x1024x4096_S500000x3_S500000_n_012_012_1.start j idx 2 = (idx (ix2 (j 0) (2 : Fin 3))).toInt := by
    unfold ScatterDims.start
    rw [dif_pos (by decide)]
    congr 2
    funext b
    match b with
    | ⟨0, _⟩ => rfl
    | ⟨1, _⟩ => rfl
  have hw : ∀ a, scatter_S16x1024x4096_S500000x3_S500000_n_012_012_1.window j a = 0 := fun a =>
    match a with
    | ⟨0, _⟩ => rfl
    | ⟨1, _⟩ => rfl
    | ⟨2, _⟩ => rfl
  constructor
  · intro h
    have h0 := h 0
    have h1 := h 1
    have h2 := h 2
    rw [hs0, hw] at h0
    rw [hs1, hw] at h1
    rw [hs2, hw] at h2
    exact ⟨by simpa using h0, by simpa using h1, by simpa using h2⟩
  · rintro ⟨h0, h1, h2⟩ a
    match a with
    | ⟨0, _⟩ => show scatter_S16x1024x4096_S500000x3_S500000_n_012_012_1.start j idx 0 + _ = _; rw [hs0, hw]; simpa using h0
    | ⟨1, _⟩ => show scatter_S16x1024x4096_S500000x3_S500000_n_012_012_1.start j idx 1 + _ = _; rw [hs1, hw]; simpa using h1
    | ⟨2, _⟩ => show scatter_S16x1024x4096_S500000x3_S500000_n_012_012_1.start j idx 2 + _ = _; rw [hs2, hw]; simpa using h2

/-- The table read at result position `j`: the entry at `j`'s signed index word, clamped to [0, 1024]. -/
theorem r_take {α : Type} (x : S1025.Idx → α) (idx : IVec S16x1x4096x1 32) (j : S16x1x4096.Idx) :
    Host.gather gather_S1025_S16x1x4096x1_S16x1x4096_n_0_n_n_0_3_1 x idx j
      = x (ix1 ⟨min (idx (ix4 (j 0) (j 1) (j 2) (0 : Fin 1))).toInt.toNat 1024, by omega⟩) := by
  unfold Host.gather
  congr 1
  funext a
  have ha : a = 0 := Subsingleton.elim _ _
  subst ha
  apply Fin.ext
  show gather_S1025_S16x1x4096x1_S16x1x4096_n_0_n_n_0_3_1.start j idx 0 + gather_S1025_S16x1x4096x1_S16x1x4096_n_0_n_n_0_3_1.batchCoord j 0
      + gather_S1025_S16x1x4096x1_S16x1x4096_n_0_n_n_0_3_1.offCoord j 0 = min (idx (ix4 (j 0) (j 1) (j 2) (0 : Fin 1))).toInt.toNat 1024
  have hb : gather_S1025_S16x1x4096x1_S16x1x4096_n_0_n_n_0_3_1.batchCoord j 0 = 0 := rfl
  have ho : gather_S1025_S16x1x4096x1_S16x1x4096_n_0_n_n_0_3_1.offCoord j 0 = 0 := rfl
  have hs : gather_S1025_S16x1x4096x1_S16x1x4096_n_0_n_n_0_3_1.start j idx 0
      = min (idx (ix4 (j 0) (j 1) (j 2) (0 : Fin 1))).toInt.toNat 1024 := by
    unfold GatherDims.start
    rw [dif_pos (by decide)]
    congr 3
    congr 1
    funext b
    match b with
    | ⟨0, _⟩ => rfl
    | ⟨1, _⟩ => rfl
    | ⟨2, _⟩ => rfl
    | ⟨3, _⟩ => rfl
  rw [hb, ho, hs]
  rfl

end R

end Cert.Idx
-- ==== Proof.Dom.lean ====
/-
  The domain of the three index arrays: every point's range bin in [0, 1024), angle bin in [0, 4096) and channel in
  [0, 16), the words read as signed integers.
-/
import Idealize.ShloMosaic.PureOps

namespace Cert.Dom

open Idealize.ShloMosaic

/-- Every point's three indices are in range. -/
def InRange (rho theta f : IVec (⟨1, ![500000]⟩ : Shape) 32) : Prop :=
  ∀ n : (⟨1, ![500000]⟩ : Shape).Idx, (0 ≤ (rho n).toInt ∧ (rho n).toInt < 1024) ∧ (0 ≤ (theta n).toInt ∧ (theta n).toInt < 4096)
    ∧ (0 ≤ (f n).toInt ∧ (f n).toInt < 16)

end Cert.Dom
-- ==== Proof.Words.lean ====
/-
  32-bit words read as signed integers, in the few forms the two programs use them: an index word that is not negative
  is read as itself by the wrap-around select; `f * 4096 + theta` is the integer it looks like while `f < 16` and
  `theta < 4096`; the greater of two words (signed) is one of them and is above both; the arg-max combiner on
  (value, position) pairs returns one of its arguments and its value is above both values.
-/
import Idealize.ShloMosaic.Lib.Affine
import Idealize.ShloMosaic.Lib.WordArith
import Idealize.ShloMosaic.Lib.ValueIdx

namespace Cert.Words

open Idealize.ShloMosaic Idealize.ShloMosaic.ValueIdx

/-- The signed order on words. -/
def le (a b : BitVec 32) : Prop := a.toInt ≤ b.toInt

theorem le_refl (a : BitVec 32) : le a a := Int.le_refl _
theorem le_trans (a b c : BitVec 32) (h1 : le a b) (h2 : le b c) : le a c := Int.le_trans h1 h2

/-- "`x` is negative" as a one-bit word is not one when `x` is not negative. -/
theorem slt_zero_ne_one {x : BitVec 32} (h : 0 ≤ x.toInt) : ¬ IntOp.cmpi .slt x 0#32 = 1#1 := by
  rw [IntOp.cmpi_slt]
  have : (0#32 : BitVec 32).toInt = 0 := by decide
  rw [this]; omega

/-- and is one when it is. -/
theorem slt_zero_eq_one {x : BitVec 32} (h : x.toInt < 0) : IntOp.cmpi .slt x 0#32 = 1#1 := by
  rw [IntOp.cmpi_slt]
  have : (0#32 : BitVec 32).toInt = 0 := by decide
  rw [this]; exact h

/-- A select on "`x` is negative" takes its second branch at a word that is not negative. -/
theorem select_of_nonneg {α : Type} {x : BitVec 32} (h : 0 ≤ x.toInt) (a b : α) :
    Scalar.select (IntOp.cmpi .slt x 0#32) a b = b := by
  rw [eq_zero_of_ne_one (slt_zero_ne_one h)]; exact select_zero a b

/-- and its first at a negative one. -/
theorem select_of_neg {α : Type} {x : BitVec 32} (h : x.toInt < 0) (a b : α) :
    Scalar.select (IntOp.cmpi .slt x 0#32) a b = a := by
  rw [slt_zero_eq_one h]; exact select_one a b

/-- The flat bin `F * 4096 + T` of a channel below 16 and an angle below 4096, as an integer. -/
theorem flat_toInt (F T : BitVec 32) (hF0 : 0 ≤ F.toInt) (hF1 : F.toInt < 16) (hT0 : 0 ≤ T.toInt) (hT1 : T.toInt < 4096) :
    (IntOp.addi (IntOp.muli F 4096#32) T).toInt = F.toInt * 4096 + T.toInt := by
  have e : (4096#32 : BitVec 32).toInt = 4096 := by decide
  have hm : (F * 4096#32).toInt = F.toInt * 4096 := by
    rw [WordArith.toInt_mul_of_bounds F 4096#32 (by rw [e]; omega) (by rw [e]; omega), e]
  show (F * 4096#32 + T).toInt = _
  rw [WordArith.toInt_add_of_bounds _ _ (by rw [hm]; omega) (by rw [hm]; omega), hm]

/-- The word `-1`. -/
theorem neg_one_toInt : (4294967295#32 : BitVec 32).toInt = -1 := by decide

/-- The greater of two words is one of them, -/
theorem maxsi_sel (a b : BitVec 32) : IntOp.maxsi a b = a ∨ IntOp.maxsi a b = b := by
  unfold IntOp.maxsi; split
  · exact Or.inl rfl
  · exact Or.inr rfl

/-- above the first, -/
theorem le_maxsi_left (a b : BitVec 32) : le a (IntOp.maxsi a b) := by
  unfold IntOp.maxsi le; split
  · exact Int.le_refl _
  · rename_i h
    have : ¬ b.toInt < a.toInt := fun hlt => h (BitVec.slt_iff_toInt_lt.mpr hlt)
    omega

/-- and above the second. -/
theorem le_maxsi_right (a b : BitVec 32) : le b (IntOp.maxsi a b) := by
  unfold IntOp.maxsi le; split
  · rename_i h
    have := BitVec.slt_iff_toInt_lt.mp h
    omega
  · exact Int.le_refl _

/-- The arg-max combiner on (value, position) pairs: the pair with the greater value, and on equal values the one
    with the lesser position. It returns one of its two arguments, -/
theorem argmax_sel (F : BitVec 32 × BitVec 32 → BitVec 32 × BitVec 32 → BitVec 32 × BitVec 32)
    (hF : ∀ a b, F a b = (Scalar.select (IntOp.ori (IntOp.cmpi .sgt a.1 b.1) (IntOp.cmpi .ne a.1 a.1)) a.1 b.1,
      Scalar.select (IntOp.ori (IntOp.ori (IntOp.cmpi .sgt a.1 b.1) (IntOp.cmpi .ne a.1 a.1))
        (IntOp.andi (IntOp.cmpi .eq a.1 b.1) (IntOp.cmpi .slt a.2 b.2))) a.2 b.2))
    (a b : BitVec 32 × BitVec 32) : F a b = a ∨ F a b = b := by
  rw [hF]
  have hne : IntOp.cmpi .ne a.1 a.1 = 0#1 := by
    unfold IntOp.cmpi; simp
  rw [hne]
  by_cases hgt : IntOp.cmpi .sgt a.1 b.1 = 1#1
  · left
    rw [hgt]
    have e1 : IntOp.ori 1#1 0#1 = 1#1 := by decide
    rw [e1]
    have e2 : ∀ c : BitVec 1, IntOp.ori 1#1 c = 1#1 := by decide
    rw [e2, select_one, select_one]
  · have hgt0 := eq_zero_of_ne_one hgt
    rw [hgt0]
    have e1 : IntOp.ori 0#1 0#1 = 0#1 := by decide
    rw [e1, select_zero]
    have e2 : ∀ c : BitVec 1, IntOp.ori 0#1 c = c := by decide
    rw [e2]
    by_cases hand : IntOp.andi (IntOp.cmpi .eq a.1 b.1) (IntOp.cmpi .slt a.2 b.2) = 1#1
    · left
      rw [hand, select_one]
      have heq := IntOp.cmpi_eq.mp (IntOp.andi_eq_one.mp hand).1
      rw [← heq]
    · right
      rw [eq_zero_of_ne_one hand, select_zero]

/-- and its value is above both values. -/
theorem argmax_fst (a b : BitVec 32) :
    le a (Scalar.select (IntOp.ori (IntOp.cmpi .sgt a b) (IntOp.cmpi .ne a a)) a b)
      ∧ le b (Scalar.select (IntOp.ori (IntOp.cmpi .sgt a b) (IntOp.cmpi .ne a a)) a b) := by
  have hne : IntOp.cmpi .ne a a = 0#1 := by
    unfold IntOp.cmpi; simp
  rw [hne]
  by_cases hgt : IntOp.cmpi .sgt a b = 1#1
  · rw [hgt]
    have e1 : IntOp.ori 1#1 0#1 = 1#1 := by decide
    rw [e1, select_one]
    have := IntOp.cmpi_sgt.mp hgt
    exact ⟨Int.le_refl _, by unfold le; omega⟩
  · rw [eq_zero_of_ne_one hgt]
    have e1 : IntOp.ori 0#1 0#1 = 0#1 := by decide
    rw [e1, select_zero]
    have : ¬ b.toInt < a.toInt := fun h => hgt (IntOp.cmpi_sgt.mpr h)
    exact ⟨by unfold le; omega, Int.le_refl _⟩

end Cert.Words
-- ==== Proof.KCol.lean ====
/-
  The kernel's bin scatter, read at a bin. Point `j` lands at bin `b` exactly when `f j * 4096 + theta j = b` (its
  indices being in range, the flat word is that integer and is not negative, so the wrap-around leaves it). The bin's
  value after the scatter by maximum from `-1` is `-1` or the range bin of a point that lands there, and is above the
  range bin of every point that lands there; a bin no point lands at stays `-1`.
-/
import proofs.«427130_j11433202942091_3_alg».proof.Proof.KSpec
import proofs.«427130_j11433202942091_3_alg».proof.Proof.LibFold
import proofs.«427130_j11433202942091_3_alg».proof.Proof.Idx
import proofs.«427130_j11433202942091_3_alg».proof.Proof.Words
import proofs.«427130_j11433202942091_3_alg».proof.Proof.Dom

noncomputable section

namespace Cert.KCol

open Idealize.ShloMosaic Idealize.ShloMosaic.ValueIdx Cert.KernelIdeal Cert.KernelIdeal.Gen Cert.KernelIdeal.Spec Cert.Lib.Fold

variable (rho theta f : IVec S500000 32)

/-- Row `j` of the one-column table made of a vector is the vector's entry `j`. -/
theorem table_read (x : IVec S500000 32) (j : S500000.Idx) :
    broadcastInDim S500000x1 ![0] bcast_S500000_S500000x1_0 x (ix2 (j 0) (0 : Fin 1)) = x j := by
  unfold broadcastInDim
  congr 1
  funext a
  match a with
  | ⟨0, _⟩ => rfl

/-- With its indices in range, point `j`'s bin word is the integer `f j * 4096 + theta j`. -/
theorem bin_toInt (hr : Cert.Dom.InRange rho theta f) (j : S500000.Idx) :
    (wrapFlat (flat theta f) j).toInt = (f j).toInt * 4096 + (theta j).toInt := by
  obtain ⟨_, ⟨ht0, ht1⟩, ⟨hf0, hf1⟩⟩ := hr j
  have hflat := Words.flat_toInt (f j) (theta j) hf0 hf1 ht0 ht1
  show (Scalar.select (IntOp.cmpi .slt (IntOp.addi (IntOp.muli (f j) 4096#32) (theta j)) 0#32)
    (IntOp.addi (IntOp.addi (IntOp.muli (f j) 4096#32) (theta j)) 65536#32)
    (IntOp.addi (IntOp.muli (f j) 4096#32) (theta j))).toInt = _
  rw [Words.select_of_nonneg (by rw [hflat]; omega), hflat]

/-- Point `j` lands at bin `b`. -/
def Lands (j : S500000.Idx) (b : S65536.Idx) : Prop :=
  scatter_S65536_S500000x1_S500000_n_0_0_1.resultIdx? j
    (broadcastInDim S500000x1 ![0] bcast_S500000_S500000x1_0 (wrapFlat (flat theta f))) = some b

theorem lands_iff (hr : Cert.Dom.InRange rho theta f) (j : S500000.Idx) (b : S65536.Idx) :
    Lands theta f j b ↔ (f j).toInt * 4096 + (theta j).toInt = ((b 0).val : Int) := by
  unfold Lands
  rw [Cert.Idx.k_land, table_read, bin_toInt rho theta f hr]

/-- The bin's value is `-1` or the range bin of a point that lands there. -/
theorem segmax_sel (b : S65536.Idx) :
    segmax rho theta f b = 4294967295#32 ∨ ∃ j, Lands theta f j b ∧ segmax rho theta f b = rho j := by
  unfold segmax
  rw [scatter_eq_foldl]
  rcases foldl_eq_init_or_hit (f := IntOp.maxsi)
      (g := fun n => scatter_S65536_S500000x1_S500000_n_0_0_1.resultIdx? (S500000.rowMajor.symm n)
        (broadcastInDim S500000x1 ![0] bcast_S500000_S500000x1_0 (wrapFlat (flat theta f))))
      (v := fun n => rho (S500000.rowMajor.symm n)) Words.maxsi_sel (List.finRange S500000.numel)
      (broadcastInDim S65536 ![] bcast_S_S65536 (constantI S_ 32 4294967295#32)) b with h | ⟨n, _, hg, he⟩
  · exact Or.inl h
  · exact Or.inr ⟨S500000.rowMajor.symm n, hg, he⟩

/-- The bin's value is above the range bin of every point that lands there. -/
theorem segmax_above (b : S65536.Idx) (j : S500000.Idx) (h : Lands theta f j b) : Words.le (rho j) (segmax rho theta f b) := by
  unfold segmax
  rw [scatter_eq_foldl]
  have H := (foldl_dominates (f := IntOp.maxsi)
      (g := fun n => scatter_S65536_S500000x1_S500000_n_0_0_1.resultIdx? (S500000.rowMajor.symm n)
        (broadcastInDim S500000x1 ![0] bcast_S500000_S500000x1_0 (wrapFlat (flat theta f))))
      (v := fun n => rho (S500000.rowMajor.symm n)) Words.le Words.le_refl Words.le_trans Words.le_maxsi_left Words.le_maxsi_right
      (List.finRange S500000.numel) (broadcastInDim S65536 ![] bcast_S_S65536 (constantI S_ 32 4294967295#32)) b).2
    (S500000.rowMajor j) (List.mem_finRange _) (by simp only [Equiv.symm_apply_apply]; exact h)
  simpa only [Equiv.symm_apply_apply] using H

/-- A bin no point lands at stays `-1`. -/
theorem segmax_none (b : S65536.Idx) (h : ∀ j, ¬ Lands theta f j b) : segmax rho theta f b = 4294967295#32 := by
  rcases segmax_sel rho theta f b with e | ⟨j, hj, _⟩
  · exact e
  · exact absurd hj (h j)

end Cert.KCol
-- ==== Proof.RCol.lean ====
/-
  The reference's volume scatter, read at an entry. Point `j` lands at (channel, range, angle) exactly when its three
  index words are those coordinates (being in range they are not negative, so the wrap-around leaves them). The entry
  after the scatter from `-1`, each point writing its own range bin, is `-1` where no point lands and the range bin of a
  point that lands there where some point does.
-/
import proofs.«427130_j11433202942091_3_alg».proof.Proof.RSpec
import proofs.«427130_j11433202942091_3_alg».proof.Proof.LibFold
import proofs.«427130_j11433202942091_3_alg».proof.Proof.Idx
import proofs.«427130_j11433202942091_3_alg».proof.Proof.Words
import proofs.«427130_j11433202942091_3_alg».proof.Proof.Dom
import Idealize.ShloMosaic.Lib.Pipeline.Value

noncomputable section

namespace Cert.RCol

open Idealize.ShloMosaic Idealize.ShloMosaic.ValueIdx Cert.ReferenceIdeal Cert.ReferenceIdeal.Gen Cert.ReferenceIdeal.Spec Cert.Lib.Fold

variable (rho theta f : IVec S500000 32)

/-- Row `j` of the one-column table made of a vector is the vector's entry `j`. -/
theorem col_read (x : IVec S500000 32) (j : S500000.Idx) : col x (ix2 (j 0) (0 : Fin 1)) = x j := by
  unfold col broadcastInDim
  congr 1
  funext a
  match a with
  | ⟨0, _⟩ => rfl

/-- An index word that is not negative is read as itself. -/
theorem wrap_of_nonneg (n : BitVec 32) (x : IVec S500000 32) (j : S500000.Idx) (h : 0 ≤ (x j).toInt) : wrap n x j = x j := by
  show Scalar.select (IntOp.cmpi .slt (x j) 0#32) (IntOp.addi (x j) n) (x j) = x j
  exact Words.select_of_nonneg h _ _

/-- Row `j` of the index table: the channel word, -/
theorem triples_read0 (j : S500000.Idx) : triples rho theta f (ix2 (j 0) (0 : Fin 3)) = wrap 16#32 f j := by
  unfold triples
  refine (concatenate_apply_piece (t := S500000x3) (1 : Fin 2)
    [⟨S500000x1, col (wrap 16#32 f)⟩, ⟨S500000x1, col (wrap 1024#32 rho)⟩, ⟨S500000x1, col (wrap 4096#32 theta)⟩]
    concatenates_S500000x1_S500000x1_S500000x1_S500000x3_d1 (ix2 (j 0) (0 : Fin 3)) 0 (by simp) S500000x1 (col (wrap 16#32 f)) rfl rfl 0 rfl
    (ix2 (j 0) (0 : Fin 1)) ?_ rfl).trans (col_read _ j)
  intro b hb
  match b with
  | ⟨0, _⟩ => rfl
  | ⟨1, _⟩ => exact absurd rfl hb

/-- the range word, -/
theorem triples_read1 (j : S500000.Idx) : triples rho theta f (ix2 (j 0) (1 : Fin 3)) = wrap 1024#32 rho j := by
  unfold triples
  refine (concatenate_apply_piece (t := S500000x3) (1 : Fin 2)
    [⟨S500000x1, col (wrap 16#32 f)⟩, ⟨S500000x1, col (wrap 1024#32 rho)⟩, ⟨S500000x1, col (wrap 4096#32 theta)⟩]
    concatenates_S500000x1_S500000x1_S500000x1_S500000x3_d1 (ix2 (j 0) (1 : Fin 3)) 1 (by simp) S500000x1 (col (wrap 1024#32 rho)) rfl rfl 1 rfl
    (ix2 (j 0) (0 : Fin 1)) ?_ rfl).trans (col_read _ j)
  intro b hb
  match b with
  | ⟨0, _⟩ => rfl
  | ⟨1, _⟩ => exact absurd rfl hb

/-- and the angle word. -/
theorem triples_read2 (j : S500000.Idx) : triples rho theta f (ix2 (j 0) (2 : Fin 3)) = wrap 4096#32 theta j := by
  unfold triples
  refine (concatenate_apply_piece (t := S500000x3) (1 : Fin 2)
    [⟨S500000x1, col (wrap 16#32 f)⟩, ⟨S500000x1, col (wrap 1024#32 rho)⟩, ⟨S500000x1, col (wrap 4096#32 theta)⟩]
    concatenates_S500000x1_S500000x1_S500000x1_S500000x3_d1 (ix2 (j 0) (2 : Fin 3)) 2 (by simp) S500000x1 (col (wrap 4096#32 theta)) rfl rfl 2 rfl
    (ix2 (j 0) (0 : Fin 1)) ?_ rfl).trans (col_read _ j)
  intro b hb
  match b with
  | ⟨0, _⟩ => rfl
  | ⟨1, _⟩ => exact absurd rfl hb

/-- Point `j` lands at entry `i`. -/
def Lands (j : S500000.Idx) (i : S16x1024x4096.Idx) : Prop :=
  scatter_S16x1024x4096_S500000x3_S500000_n_012_012_1.resultIdx? j (triples rho theta f) = some i

theorem lands_iff (hr : Cert.Dom.InRange rho theta f) (j : S500000.Idx) (i : S16x1024x4096.Idx) :
    Lands rho theta f j i ↔ (f j).toInt = ((i 0).val : Int) ∧ (rho j).toInt = ((i 1).val : Int) ∧ (theta j).toInt = ((i 2).val : Int) := by
  obtain ⟨⟨hr0, _⟩, ⟨ht0, _⟩, ⟨hf0, _⟩⟩ := hr j
  unfold Lands
  rw [Cert.Idx.r_land, triples_read0, triples_read1, triples_read2, wrap_of_nonneg _ _ _ hf0, wrap_of_nonneg _ _ _ hr0,
    wrap_of_nonneg _ _ _ ht0]

/-- An entry no point lands at is `-1`. -/
theorem occ_none (i : S16x1024x4096.Idx) (h : ∀ j, ¬ Lands rho theta f j i) : occ rho theta f i = 4294967295#32 := by
  unfold occ
  rw [scatter_eq_foldl]
  exact foldl_of_no_hit (f := fun _ y => y)
    (g := fun n => scatter_S16x1024x4096_S500000x3_S500000_n_012_012_1.resultIdx? (S500000.rowMajor.symm n) (triples rho theta f))
    (v := fun n => rho (S500000.rowMajor.symm n)) (fun _ _ => Or.inr rfl) (List.finRange S500000.numel)
    (broadcastInDim S16x1024x4096 ![] bcast_S_S16x1024x4096 (constantI S_ 32 4294967295#32)) i (fun n _ hg => h _ hg)

/-- An entry some point lands at holds the range bin of a point that lands there. -/
theorem occ_hit (i : S16x1024x4096.Idx) (h : ∃ j, Lands rho theta f j i) :
    ∃ j, Lands rho theta f j i ∧ occ rho theta f i = rho j := by
  obtain ⟨j, hj⟩ := h
  unfold occ
  rw [scatter_eq_foldl]
  obtain ⟨n, _, hg, he⟩ := foldl_set_hit
    (g := fun n => scatter_S16x1024x4096_S500000x3_S500000_n_012_012_1.resultIdx? (S500000.rowMajor.symm n) (triples rho theta f))
    (v := fun n => rho (S500000.rowMajor.symm n)) (List.finRange S500000.numel)
    (broadcastInDim S16x1024x4096 ![] bcast_S_S16x1024x4096 (constantI S_ 32 4294967295#32)) i
    ⟨S500000.rowMajor j, List.mem_finRange _, by simp only [Equiv.symm_apply_apply]; exact hj⟩
  exact ⟨S500000.rowMajor.symm n, hg, he⟩

end Cert.RCol
-- ==== Proof.LibReduce.lean ====
/-
  A host reduction read at a result index through MEMBERSHIP, at any shapes: the operand indices that reduce into the
  result index `j` are those `i` with `h.drop i = j`. A two-operand reduction (an arg-max) whose combiner returns one
  of its arguments, and whose first component is above both arguments' under a reflexive transitive relation, ends at
  a pair whose first component is above every such entry's, and which is the initial pair or some such entry's pair.
  A reduction by `and` from one over one-bit words that are all one is one. Stated over arbitrary shapes, so that
  nothing here depends on, or computes with, an array's extent.
-/
import Idealize.ShloMosaic.PureOps
import proofs.«427130_j11433202942091_3_alg».proof.Proof.LibFold

namespace Cert.Lib.Reduce

open Idealize.ShloMosaic Cert.Lib.Fold

variable {s t u : Shape} {axes : List (Fin s.rank)} {α β : Type}

/-- The pair's first component is above that of every entry reducing into `j`. -/
theorem reduce2_above (f : α × β → α × β → α × β) (le : α → α → Prop) (hrefl : ∀ a, le a a)
    (htrans : ∀ a b c, le a b → le b c → le a c) (hl : ∀ a b : α × β, le a.1 (f a b).1) (hr : ∀ a b : α × β, le b.1 (f a b).1)
    (x : s.Idx → α) (y : s.Idx → β) (ix : u.Idx → α) (iy : u.Idx → β) (h : s.ReducesTo axes t) (hu : 0 < u.numel) (j : t.Idx)
    (i : s.Idx) (hi : h.drop i = j) : le (x i) (Host.reduce2 f x y ix iy h hu j).1 := by
  unfold Host.reduce2
  generalize hlist : List.filter _ (List.finRange s.numel) = l
  have hmem : s.rowMajor i ∈ l := by
    rw [← hlist, List.mem_filter, decide_eq_true_iff, Equiv.symm_apply_apply]
    exact ⟨List.mem_finRange _, hi⟩
  have H := (foldl_above (f := f) (fun p q : α × β => le p.1 q.1) (fun a => hrefl _) (fun a b c h1 h2 => htrans _ _ _ h1 h2) hl hr
    (fun n : Fin s.numel => (x (s.rowMajor.symm n), y (s.rowMajor.symm n))) l
    (ix (Shape.Idx.first hu), iy (Shape.Idx.first hu))).2 (s.rowMajor i) hmem
  simp only [Equiv.symm_apply_apply] at H
  exact H

/-- The pair is the initial one or the pair of some entry reducing into `j`. -/
theorem reduce2_init_or_mem (f : α × β → α × β → α × β) (hsel : ∀ a b, f a b = a ∨ f a b = b)
    (x : s.Idx → α) (y : s.Idx → β) (ix : u.Idx → α) (iy : u.Idx → β) (h : s.ReducesTo axes t) (hu : 0 < u.numel) (j : t.Idx) :
    Host.reduce2 f x y ix iy h hu j = (ix (Shape.Idx.first hu), iy (Shape.Idx.first hu))
      ∨ ∃ i : s.Idx, h.drop i = j ∧ Host.reduce2 f x y ix iy h hu j = (x i, y i) := by
  unfold Host.reduce2
  generalize hlist : List.filter _ (List.finRange s.numel) = l
  rcases foldl_eq_init_or_mem (f := f) hsel
    (fun n : Fin s.numel => (x (s.rowMajor.symm n), y (s.rowMajor.symm n))) l
    (ix (Shape.Idx.first hu), iy (Shape.Idx.first hu)) with e | ⟨n, hn, e⟩
  · exact Or.inl e
  · rw [← hlist, List.mem_filter, decide_eq_true_iff] at hn
    exact Or.inr ⟨s.rowMajor.symm n, hn.2, e⟩

/-- The same two facts for any function `g` that IS the position part of the reduction's pair, the pair itself named:
    `g j` is the position part of a pair `P` whose first component is above that of every entry reducing into `j`,
    and which is the initial pair or the pair of some entry reducing into `j`. -/
theorem reduce2_snd_spec (f : α × β → α × β → α × β) (hsel : ∀ a b, f a b = a ∨ f a b = b) (le : α → α → Prop)
    (hrefl : ∀ a, le a a) (htrans : ∀ a b c, le a b → le b c → le a c) (hl : ∀ a b : α × β, le a.1 (f a b).1)
    (hr : ∀ a b : α × β, le b.1 (f a b).1)
    (x : s.Idx → α) (y : s.Idx → β) (ix : u.Idx → α) (iy : u.Idx → β) (h : s.ReducesTo axes t) (hu : 0 < u.numel)
    (g : t.Idx → β) (hg : g = fun j => (Host.reduce2 f x y ix iy h hu j).2) (j : t.Idx) :
    ∃ P : α × β, g j = P.2
      ∧ (∀ i : s.Idx, h.drop i = j → le (x i) P.1)
      ∧ (P = (ix (Shape.Idx.first hu), iy (Shape.Idx.first hu)) ∨ ∃ i : s.Idx, h.drop i = j ∧ P = (x i, y i)) := by
  subst hg
  exact ⟨Host.reduce2 f x y ix iy h hu j, rfl, fun i hi => reduce2_above f le hrefl htrans hl hr x y ix iy h hu j i hi,
    reduce2_init_or_mem f hsel x y ix iy h hu j⟩

/-- A left fold by `and` from one over words that are all one is one. -/
theorem foldl_andi_ones {ι : Type} (g : ι → BitVec 1) (l : List ι) (init : BitVec 1) (hinit : init = 1#1)
    (h : ∀ i ∈ l, g i = 1#1) : l.foldl (fun r i => IntOp.andi r (g i)) init = 1#1 := by
  subst hinit
  induction l with
  | nil => rfl
  | cons a l ih =>
    rw [List.foldl_cons, h a List.mem_cons_self]
    have : IntOp.andi 1#1 1#1 = 1#1 := by decide
    rw [this]
    exact ih fun i hi => h i (List.mem_cons_of_mem _ hi)

/-- A reduction by `and` from one is one at `j` when every entry reducing into `j` is one. -/
theorem reduce_andi_of_all (x : s.Idx → BitVec 1) (init : u.Idx → BitVec 1) (h : s.ReducesTo axes t) (hu : 0 < u.numel) (j : t.Idx)
    (hinit : init (Shape.Idx.first hu) = 1#1) (hall : ∀ i : s.Idx, h.drop i = j → x i = 1#1) :
    Host.reduce IntOp.andi x init h hu j = 1#1 := by
  unfold Host.reduce
  generalize hlist : List.filter _ (List.finRange s.numel) = l
  refine foldl_andi_ones (fun n : Fin s.numel => x (s.rowMajor.symm n)) l _ hinit ?_
  intro n hn
  rw [← hlist, List.mem_filter, decide_eq_true_iff] at hn
  exact hall _ hn.2

end Cert.Lib.Reduce
-- ==== Proof.RedCol.lean ====
/-
  The reference's two reductions along the range axis of a (16, 1024, 4096) array `o` of words, read at a
  (channel, angle) column through membership: the entries that reduce into column (c, t) are those with channel `c`
  and angle `t`; the arg-max's running (value, position) pair ends above every entry's value and, unless it is still
  the initial pair, is some entry's (value, its range position); the all-minus-one flag of a column is one exactly
  when every entry of the column is `-1`.
-/
import proofs.«427130_j11433202942091_3_alg».proof.Proof.RSpec
import proofs.«427130_j11433202942091_3_alg».proof.Proof.LibFold
import proofs.«427130_j11433202942091_3_alg».proof.Proof.LibReduce
import proofs.«427130_j11433202942091_3_alg».proof.Proof.Words
import Idealize.ShloMosaic.Lib.ReduceAll
import Idealize.ShloMosaic.Lib.ValueIdx

noncomputable section

namespace Cert.RedCol

open Idealize.ShloMosaic Idealize.ShloMosaic.ValueIdx Cert.ReferenceIdeal Cert.ReferenceIdeal.Gen Cert.Lib.Fold Cert.Lib.Reduce

-- the two reductions stay folded in this module: each is read through the membership lemmas, never computed
attribute [local irreducible] Host.reduce2 Host.reduce

/-- An entry reduces into column (c, t) exactly when its channel is `c` and its angle is `t`. -/
theorem drop_eq_iff (i : S16x1024x4096.Idx) (c : Fin 16) (t : Fin 4096) :
    (reducesTo_S16x1024x4096_S16x4096_d1 : S16x1024x4096.ReducesTo [1] S16x4096).drop i = ix2 c t
      ↔ (i 0).val = c.val ∧ (i 2).val = t.val := by
  constructor
  · intro h
    have h0 := congrArg Fin.val (congrFun h 0)
    have h1 := congrArg Fin.val (congrFun h 1)
    exact ⟨h0, h1⟩
  · rintro ⟨h0, h1⟩
    funext b
    match b with
    | ⟨0, _⟩ => exact Fin.ext h0
    | ⟨1, _⟩ => exact Fin.ext h1

/-! ## The arg-max along the range axis -/

/-- The arg-max, as a function of the column, is the position part of the two-operand reduction's pair. -/
theorem amax_unfold (o : IVec S16x1024x4096 32) :
    Spec.amax o = fun j => (Host.reduce2 reducer_argmax_i32_i32 o (iotaInDim S16x1024x4096 32 1) (constantI S_ 32 2147483648#32)
      (constantI S_ 32 0#32) reducesTo_S16x1024x4096_S16x4096_d1 h_S_ j).2 := rfl

/-- The arg-max of column (c, t) is the position `p` going with a value `v` that is above the value of every entry of
    the column, where (v, p) is the initial (least word, 0) or some entry's (value, range position) of the column. -/
theorem amax_spec (o : IVec S16x1024x4096 32) (c : Fin 16) (t : Fin 4096) :
    ∃ v p : BitVec 32, Spec.amax o (ix2 c t) = p
      ∧ (∀ i : S16x1024x4096.Idx, (i 0).val = c.val → (i 2).val = t.val → Words.le (o i) v)
      ∧ ((v = 2147483648#32 ∧ p = 0#32)
          ∨ ∃ i : S16x1024x4096.Idx, (i 0).val = c.val ∧ (i 2).val = t.val ∧ v = o i ∧ p = BitVec.ofNat 32 (i 1).val) := by
  obtain ⟨⟨v, p⟩, hP, habove, hsel⟩ := reduce2_snd_spec reducer_argmax_i32_i32
    (Words.argmax_sel reducer_argmax_i32_i32 (fun a b => rfl)) Words.le Words.le_refl Words.le_trans
    (fun a b => (Words.argmax_fst a.1 b.1).1) (fun a b => (Words.argmax_fst a.1 b.1).2)
    o (iotaInDim S16x1024x4096 32 1) (constantI S_ 32 2147483648#32) (constantI S_ 32 0#32)
    reducesTo_S16x1024x4096_S16x4096_d1 h_S_ (Spec.amax o) (amax_unfold o) (ix2 c t)
  refine ⟨v, p, hP.trans (rfl : (v, p).2 = p), fun i h0 h2 => habove i ((drop_eq_iff i c t).2 ⟨h0, h2⟩), ?_⟩
  rcases hsel with e | ⟨i, hi, e⟩
  · exact Or.inl (Prod.mk.inj e)
  · obtain ⟨h0, h2⟩ := (drop_eq_iff i c t).1 hi
    obtain ⟨e1, e2⟩ := Prod.mk.inj e
    exact Or.inr ⟨i, h0, h2, e1, e2⟩

/-! ## The all-minus-one flag -/

/-- If the flag of column (c, t) is one, every entry of the column is `-1`. -/
theorem all_neg_one_of_empt (o : IVec S16x1024x4096 32) (c : Fin 16) (t : Fin 4096) (e : Spec.empt o (ix2 c t) = 1#1)
    (i : S16x1024x4096.Idx) (h0 : (i 0).val = c.val) (h2 : (i 2).val = t.val) : o i = 4294967295#32 := by
  have := Host.reduce_andi_eq_one
    (cmpi .eq o (broadcastInDim S16x1024x4096 ![] bcast_S_S16x1024x4096 (constantI S_ 32 4294967295#32)))
    (constantI S_ 1 1#1) reducesTo_S16x1024x4096_S16x4096_d1 h_S_ (ix2 c t) e i ((drop_eq_iff i c t).2 ⟨h0, h2⟩)
  exact IntOp.cmpi_eq.mp this

/-- If every entry of column (c, t) is `-1`, its flag is one. -/
theorem empt_of_all_neg_one (o : IVec S16x1024x4096 32) (c : Fin 16) (t : Fin 4096)
    (h : ∀ i : S16x1024x4096.Idx, (i 0).val = c.val → (i 2).val = t.val → o i = 4294967295#32) :
    Spec.empt o (ix2 c t) = 1#1 := by
  refine reduce_andi_of_all
    (cmpi .eq o (broadcastInDim S16x1024x4096 ![] bcast_S_S16x1024x4096 (constantI S_ 32 4294967295#32)))
    (constantI S_ 1 1#1) reducesTo_S16x1024x4096_S16x4096_d1 h_S_ (ix2 c t) rfl ?_
  intro i hi
  obtain ⟨h0, h2⟩ := (drop_eq_iff i c t).1 hi
  exact IntOp.cmpi_eq.mpr (h i h0 h2)

end Cert.RedCol
-- ==== Proof.Column.lean ====
/-
  THE COLUMN THEOREM. For a (channel, angle) column (c, t) the reference's table position — the position of the
  column's greatest entry, or 1024 when the column holds only `-1` — is the kernel's — the greatest range bin of the
  points of bin `c * 4096 + t`, or 1024 when there is none. A point is in the column when its channel is `c` and its
  angle is `t`. If some point is, both sides are the range bin of a point of the column that is above the range bin
  of every point of the column, and there is one such value. If none is, both sides are 1024.
-/
import proofs.«427130_j11433202942091_3_alg».proof.Proof.KCol
import proofs.«427130_j11433202942091_3_alg».proof.Proof.RCol
import proofs.«427130_j11433202942091_3_alg».proof.Proof.RedCol

noncomputable section

namespace Cert.Column

open Idealize.ShloMosaic Idealize.ShloMosaic.ValueIdx

-- the reductions, the scatters and the gathers stay folded in this module: each is read through its lemmas, never computed
attribute [local irreducible] Host.reduce Host.reduce2 Host.scatter Host.gather

/-! ## Three facts about integers, used on the words' signed readings -/

/-- Rewriting the left side of an inequality. -/
theorem le_of_eq_le {a b c : Int} (h : a = b) (h' : a ≤ c) : b ≤ c := h ▸ h'

/-- No number is both at least zero and equal to a negative one. -/
theorem false_of_nonneg_of_eq_neg {x : Int} (k : Int) (hk : k < 0) (h0 : 0 ≤ x) (hx : x = k) : False := by omega

/-- If `r₂ ≤ r₁ ≤ v` and `v = r₂`, then anything equal to `r₂` is `r₁`. -/
theorem eq_of_sandwich {r₁ r₂ v p : Int} (a1 : r₂ ≤ r₁) (a2 : r₁ ≤ v) (hv : v = r₂) (hp : p = r₂) : p = r₁ := by omega

variable (rho theta f : IVec (⟨1, ![500000]⟩ : Shape) 32)

/-- Point `j` is in column (c, t). -/
def InCol (j : (⟨1, ![500000]⟩ : Shape).Idx) (c : Fin 16) (t : Fin 4096) : Prop :=
  (f j).toInt = (c.val : Int) ∧ (theta j).toInt = (t.val : Int)

/-- The flat bin of column (c, t). -/
abbrev bin (c : Fin 16) (t : Fin 4096) : (⟨1, ![65536]⟩ : Shape).Idx :=
  ix1 (⟨c.val * 4096 + t.val, by have := c.isLt; have := t.isLt; omega⟩ : Fin 65536)

/-- A point lands at the column's bin exactly when it is in the column. -/
theorem k_lands_iff (hr : Cert.Dom.InRange rho theta f) (j : (⟨1, ![500000]⟩ : Shape).Idx) (c : Fin 16) (t : Fin 4096) :
    Cert.KCol.Lands theta f j (bin c t) ↔ InCol theta f j c t := by
  rw [Cert.KCol.lands_iff rho theta f hr]
  obtain ⟨_, ⟨ht0, ht1⟩, ⟨hf0, hf1⟩⟩ := hr j
  have hb : (((bin c t) 0).val : Int) = (c.val : Int) * 4096 + (t.val : Int) := by
    show ((c.val * 4096 + t.val : Nat) : Int) = _
    push_cast; rfl
  rw [hb]
  unfold InCol
  have := t.isLt
  constructor
  · intro h; constructor <;> omega
  · rintro ⟨h1, h2⟩; omega

/-- A point lands at entry (c, ρ, t) exactly when it is in the column and its range bin is ρ. -/
theorem r_lands_iff (hr : Cert.Dom.InRange rho theta f) (j : (⟨1, ![500000]⟩ : Shape).Idx)
    (i : (⟨3, ![16, 1024, 4096]⟩ : Shape).Idx) (c : Fin 16) (t : Fin 4096) (h0 : (i 0).val = c.val) (h2 : (i 2).val = t.val) :
    Cert.RCol.Lands rho theta f j i ↔ InCol theta f j c t ∧ (rho j).toInt = ((i 1).val : Int) := by
  rw [Cert.RCol.lands_iff rho theta f hr]
  unfold InCol
  rw [h0, h2]
  constructor
  · rintro ⟨a, b, c'⟩; exact ⟨⟨a, c'⟩, b⟩
  · rintro ⟨⟨a, c'⟩, b⟩; exact ⟨a, b, c'⟩

/-- The entry of the column at the range bin of a point of the column holds a word with that point's range bin. -/
theorem occ_at_point (hr : Cert.Dom.InRange rho theta f) (j : (⟨1, ![500000]⟩ : Shape).Idx) (c : Fin 16) (t : Fin 4096)
    (hj : InCol theta f j c t) :
    ∃ i : (⟨3, ![16, 1024, 4096]⟩ : Shape).Idx, (i 0).val = c.val ∧ (i 2).val = t.val
      ∧ (Cert.ReferenceIdeal.Spec.occ rho theta f i).toInt = (rho j).toInt := by
  obtain ⟨⟨hr0, hr1⟩, _, _⟩ := hr j
  have hlt : (rho j).toInt.toNat < 1024 := by omega
  refine ⟨ix3 c (⟨(rho j).toInt.toNat, hlt⟩ : Fin 1024) t, rfl, rfl, ?_⟩
  have hl : Cert.RCol.Lands rho theta f j (ix3 c (⟨(rho j).toInt.toNat, hlt⟩ : Fin 1024) t) :=
    (r_lands_iff rho theta f hr j _ c t rfl rfl).2 ⟨hj, by
      show (rho j).toInt = (((rho j).toInt.toNat : Nat) : Int)
      omega⟩
  obtain ⟨j', hj', he⟩ := Cert.RCol.occ_hit rho theta f _ ⟨j, hl⟩
  rw [he]
  have := ((r_lands_iff rho theta f hr j' _ c t rfl rfl).1 hj').2
  rw [this]
  show (((rho j).toInt.toNat : Nat) : Int) = (rho j).toInt
  omega

/-- An entry of the column that is not `-1` holds the range bin of a point of the column, and that range bin is the
    entry's range position. -/
theorem point_of_occ (hr : Cert.Dom.InRange rho theta f) (i : (⟨3, ![16, 1024, 4096]⟩ : Shape).Idx) (c : Fin 16) (t : Fin 4096)
    (h0 : (i 0).val = c.val) (h2 : (i 2).val = t.val) (hne : Cert.ReferenceIdeal.Spec.occ rho theta f i ≠ 4294967295#32) :
    ∃ j, InCol theta f j c t ∧ Cert.ReferenceIdeal.Spec.occ rho theta f i = rho j ∧ (rho j).toInt = ((i 1).val : Int) := by
  have hex : ∃ j, Cert.RCol.Lands rho theta f j i := by
    by_contra hno
    exact hne (Cert.RCol.occ_none rho theta f i fun j hj => hno ⟨j, hj⟩)
  obtain ⟨j, hj, he⟩ := Cert.RCol.occ_hit rho theta f i hex
  obtain ⟨hc, hρ⟩ := (r_lands_iff rho theta f hr j i c t h0 h2).1 hj
  exact ⟨j, hc, he, hρ⟩

/-- Reading the (16, 4096) array laid along the (16, 1, 4096) one at (c, 0, t). -/
theorem bcast02_read {α : Type} (x : (⟨2, ![16, 4096]⟩ : Shape).Idx → α) (c : Fin 16) (t : Fin 4096) :
    broadcastInDim Cert.ReferenceIdeal.S16x1x4096 ![0, 2] Cert.ReferenceIdeal.Gen.bcast_S16x4096_S16x1x4096_0_2 x (ix3 c (0 : Fin 1) t)
      = x (ix2 c t) := by
  unfold broadcastInDim
  congr 1
  funext a
  match a with
  | ⟨0, _⟩ => rfl
  | ⟨1, _⟩ => rfl

/-- The reference's table position of column (c, t), from the flag and the arg-max. -/
theorem ids_read (o : IVec Cert.ReferenceIdeal.S16x1024x4096 32) (c : Fin 16) (t : Fin 4096) :
    Cert.ReferenceIdeal.Spec.ids o (ix3 c (0 : Fin 1) t)
      = Scalar.select (Cert.ReferenceIdeal.Spec.empt o (ix2 c t)) 1024#32 (Cert.ReferenceIdeal.Spec.amax o (ix2 c t)) := by
  show Scalar.select (broadcastInDim Cert.ReferenceIdeal.S16x1x4096 ![0, 2] Cert.ReferenceIdeal.Gen.bcast_S16x4096_S16x1x4096_0_2
      (Cert.ReferenceIdeal.Spec.empt o) (ix3 c (0 : Fin 1) t)) 1024#32
    (broadcastInDim Cert.ReferenceIdeal.S16x1x4096 ![0, 2] Cert.ReferenceIdeal.Gen.bcast_S16x4096_S16x1x4096_0_2
      (Cert.ReferenceIdeal.Spec.amax o) (ix3 c (0 : Fin 1) t)) = _
  rw [bcast02_read, bcast02_read]

/-- The kernel's table position of a bin. -/
theorem fill_read (s : IVec Cert.KernelIdeal.S65536 32) (b : Cert.KernelIdeal.S65536.Idx) :
    Cert.KernelIdeal.Spec.fillEmpty s b = Scalar.select (IntOp.cmpi .slt (s b) 0#32) 1024#32 (s b) := rfl

/-- THE COLUMN THEOREM. -/
theorem column (hr : Cert.Dom.InRange rho theta f) (c : Fin 16) (t : Fin 4096) :
    Cert.ReferenceIdeal.Spec.ids (Cert.ReferenceIdeal.Spec.occ rho theta f) (ix3 c (0 : Fin 1) t)
      = Cert.KernelIdeal.Spec.fillEmpty (Cert.KernelIdeal.Spec.segmax rho theta f) (bin c t) := by
  rw [ids_read, fill_read]
  by_cases hcol : ∃ j, InCol theta f j c t
  · -- some point is in the column
    obtain ⟨j0, hj0⟩ := hcol
    obtain ⟨⟨hρ0, _⟩, _, _⟩ := hr j0
    -- the kernel's side: the range bin of a point of the column, above every point's of the column
    have ks_above : ∀ j, InCol theta f j c t → (rho j).toInt ≤ (Cert.KernelIdeal.Spec.segmax rho theta f (bin c t)).toInt :=
      fun j hj => Cert.KCol.segmax_above rho theta f (bin c t) j ((k_lands_iff rho theta f hr j c t).2 hj)
    have ks_nonneg : 0 ≤ (Cert.KernelIdeal.Spec.segmax rho theta f (bin c t)).toInt := Int.le_trans hρ0 (ks_above j0 hj0)
    obtain ⟨j1, hj1, hs1⟩ : ∃ j, InCol theta f j c t ∧ Cert.KernelIdeal.Spec.segmax rho theta f (bin c t) = rho j := by
      rcases Cert.KCol.segmax_sel rho theta f (bin c t) with e | ⟨j, hj, he⟩
      · rw [e, Words.neg_one_toInt] at ks_nonneg
        exact absurd ks_nonneg (by decide)
      · exact ⟨j, (k_lands_iff rho theta f hr j c t).1 hj, he⟩
    -- the reference's side: the arg-max is the position `p` going with a value `v` above every point's range bin
    obtain ⟨v, p, hp, hvabove, hsel⟩ := Cert.RedCol.amax_spec (Cert.ReferenceIdeal.Spec.occ rho theta f) c t
    have rp_above : ∀ j, InCol theta f j c t → (rho j).toInt ≤ v.toInt := by
      intro j hj
      obtain ⟨i, h0, h2, hi⟩ := occ_at_point rho theta f hr j c t hj
      have := hvabove i h0 h2
      unfold Words.le at this
      exact le_of_eq_le hi this
    have rp_nonneg : 0 ≤ v.toInt := Int.le_trans hρ0 (rp_above j0 hj0)
    -- so (v, p) is an entry's of the column, that entry the range bin of a point of the column at its own position
    obtain ⟨j2, hj2, hv2, hp2⟩ : ∃ j, InCol theta f j c t ∧ v.toInt = (rho j).toInt ∧ p.toInt = (rho j).toInt := by
      rcases hsel with ⟨ev, _⟩ | ⟨i, h0, h2, ev, ep⟩
      · exact (false_of_nonneg_of_eq_neg (-2147483648) (by decide) rp_nonneg (by rw [ev]; decide)).elim
      · have hne : Cert.ReferenceIdeal.Spec.occ rho theta f i ≠ 4294967295#32 := by
          intro h
          exact false_of_nonneg_of_eq_neg (-1) (by decide) rp_nonneg (by rw [ev, h]; exact Words.neg_one_toInt)
        obtain ⟨j, hj, he, hρ⟩ := point_of_occ rho theta f hr i c t h0 h2 hne
        have hlt : (i 1).val < 1024 := (i 1).isLt
        refine ⟨j, hj, by rw [ev, he], ?_⟩
        rw [ep, WordArith.toInt_ofNat_small _ (Nat.lt_trans hlt (by decide)), hρ]
    -- the two are one word
    have heq : p = Cert.KernelIdeal.Spec.segmax rho theta f (bin c t) := by
      apply BitVec.eq_of_toInt_eq
      have a1 := ks_above j2 hj2
      have a2 := rp_above j1 hj1
      rw [hs1] at a1 ⊢
      exact eq_of_sandwich a1 a2 hv2 hp2
    -- the flag is not one: the entry at j0's range bin is not -1
    have hflag : ¬ Cert.ReferenceIdeal.Spec.empt (Cert.ReferenceIdeal.Spec.occ rho theta f) (ix2 c t) = 1#1 := by
      intro e
      obtain ⟨i, h0, h2, hi⟩ := occ_at_point rho theta f hr j0 c t hj0
      rw [Cert.RedCol.all_neg_one_of_empt _ c t e i h0 h2, Words.neg_one_toInt] at hi
      exact false_of_nonneg_of_eq_neg (-1) (by decide) hρ0 hi.symm
    rw [eq_zero_of_ne_one hflag, select_zero, hp, heq, Words.select_of_nonneg ks_nonneg]
  · -- no point is in the column
    have hnone : ∀ j, ¬ InCol theta f j c t := fun j hj => hcol ⟨j, hj⟩
    have hk : Cert.KernelIdeal.Spec.segmax rho theta f (bin c t) = 4294967295#32 :=
      Cert.KCol.segmax_none rho theta f (bin c t) fun j hj => hnone j ((k_lands_iff rho theta f hr j c t).1 hj)
    have hflag : Cert.ReferenceIdeal.Spec.empt (Cert.ReferenceIdeal.Spec.occ rho theta f) (ix2 c t) = 1#1 :=
      Cert.RedCol.empt_of_all_neg_one _ c t fun i h0 h2 =>
        Cert.RCol.occ_none rho theta f i fun j hj => hnone j ((r_lands_iff rho theta f hr j i c t h0 h2).1 hj).1
    rw [hflag, select_one, hk, Words.select_of_neg (by rw [Words.neg_one_toInt]; decide)]

end Cert.Column
-- ==== Proof.Bridge.lean ====
/-
  The two results are one function of the arguments when every point's indices are in range. At (channel, range,
  angle) each is the table `rp` read at the column's position, clamped into the table after the wrap-around of a
  negative position, less `r` at the range; the column's position is the same word on both sides (the column theorem),
  and the kernel's flat bin `channel * 4096 + angle` is where its (16, 4096) layout of the bins puts the column.
-/
import proofs.«427130_j11433202942091_3_alg».proof.Proof.RSpec
import proofs.«427130_j11433202942091_3_alg».proof.Proof.KSpec
import proofs.«427130_j11433202942091_3_alg».proof.Proof.Idx
import proofs.«427130_j11433202942091_3_alg».proof.Proof.Dom
import proofs.«427130_j11433202942091_3_alg».proof.Proof.Column
import Idealize.ShloMosaic.Lib.Pipeline.Value

noncomputable section

namespace Cert.Bridge

open Idealize.ShloMosaic Idealize.ShloMosaic.ValueIdx

-- the reductions, the scatters and the gathers stay folded in this module: each is read through its lemmas, never computed
attribute [local irreducible] Host.reduce Host.reduce2 Host.scatter Host.gather

variable {F : FTy → Type} [FloatOps F]

/-- The (16, 1, 4096) array laid along the range axis, read at (c, q, t): its entry at (c, 0, t). -/
theorem bcast_col_read {α : Type} (x : Cert.ReferenceIdeal.S16x1x4096.Idx → α) (c : Fin 16) (q : Fin 1024) (t : Fin 4096) :
    broadcastInDim Cert.ReferenceIdeal.S16x1024x4096 ![0, 1, 2] Cert.ReferenceIdeal.Gen.bcast_S16x1x4096_S16x1024x4096_0_1_2 x (ix3 c q t)
      = x (ix3 c (0 : Fin 1) t) := by
  unfold broadcastInDim
  congr 1
  funext a
  match a with
  | ⟨0, _⟩ => rfl
  | ⟨1, _⟩ => rfl
  | ⟨2, _⟩ => rfl

/-- The (1, 1024, 1) array laid along the channel and angle axes, read at (c, q, t): its entry at (0, q, 0). -/
theorem bcast_row_read {α : Type} (y : Cert.ReferenceIdeal.S1x1024x1.Idx → α) (c : Fin 16) (q : Fin 1024) (t : Fin 4096) :
    broadcastInDim Cert.ReferenceIdeal.S16x1024x4096 ![0, 1, 2] Cert.ReferenceIdeal.Gen.bcast_S1x1024x1_S16x1024x4096_0_1_2 y (ix3 c q t)
      = y (ix3 (0 : Fin 1) q (0 : Fin 1)) := by
  unfold broadcastInDim
  congr 1
  funext a
  match a with
  | ⟨0, _⟩ => rfl
  | ⟨1, _⟩ => rfl
  | ⟨2, _⟩ => rfl

/-- The positions as a one-column table over the (16, 1, 4096) columns, read at a column. -/
theorem bcast4_read {α : Type} (v : Cert.ReferenceIdeal.S16x1x4096.Idx → α) (j : Cert.ReferenceIdeal.S16x1x4096.Idx) :
    broadcastInDim Cert.ReferenceIdeal.S16x1x4096x1 ![0, 1, 2] Cert.ReferenceIdeal.Gen.bcast_S16x1x4096_S16x1x4096x1_0_1_2 v
      (ix4 (j 0) (j 1) (j 2) (0 : Fin 1)) = v j := by
  unfold broadcastInDim
  congr 1
  funext a
  match a with
  | ⟨0, _⟩ => rfl
  | ⟨1, _⟩ => exact Subsingleton.elim (α := Fin 1) _ _
  | ⟨2, _⟩ => rfl

/-- The positions as a one-column table over the 65536 bins, read at a bin. -/
theorem bcol_read {α : Type} (w : Cert.KernelIdeal.S65536.Idx → α) (b : Cert.KernelIdeal.S65536.Idx) :
    broadcastInDim Cert.KernelIdeal.S65536x1 ![0] Cert.KernelIdeal.Gen.bcast_S65536_S65536x1_0 w (ix2 (b 0) (0 : Fin 1)) = w b := by
  unfold broadcastInDim
  congr 1
  funext a
  match a with
  | ⟨0, _⟩ => rfl

/-- A position word as a table index: read signed and clamped into the table's 1025 entries. -/
def clampIdx (w : BitVec 32) : (⟨1, ![1025]⟩ : Shape).Idx := ix1 (⟨min w.toInt.toNat 1024, by omega⟩ : Fin 1025)

/-- The reference's table entry of a column: `rp` at the column's position word, clamped. -/
theorem r_entry (rp : FVec F Cert.ReferenceIdeal.S1025 .f32) (v : IVec Cert.ReferenceIdeal.S16x1x4096 32)
    (j : Cert.ReferenceIdeal.S16x1x4096.Idx) :
    Cert.ReferenceIdeal.Spec.gath rp v j = rp (clampIdx (v j)) := by
  unfold Cert.ReferenceIdeal.Spec.gath clampIdx
  rw [Cert.Idx.r_take]
  congr 2
  apply Fin.ext
  show min _ 1024 = min _ 1024
  rw [bcast4_read]

/-- The kernel's table entry of a bin: `rp` at the bin's position word, clamped. -/
theorem k_entry (rp : FVec F Cert.KernelIdeal.S1025 .f32) (w : IVec Cert.KernelIdeal.S65536 32) (b : Cert.KernelIdeal.S65536.Idx) :
    Cert.KernelIdeal.Spec.take rp w b = rp (clampIdx (w b)) := by
  unfold Cert.KernelIdeal.Spec.take clampIdx
  rw [Cert.Idx.k_take]
  congr 2
  apply Fin.ext
  show min _ 1024 = min _ 1024
  rw [bcol_read]

/-- The kernel's (16, 4096) layout of the bins' entries puts column (c, t) at bin `c * 4096 + t`. -/
theorem k_ids_read (rho theta f : IVec Cert.KernelIdeal.S500000 32) (rp : FVec F Cert.KernelIdeal.S1025 .f32) (c : Fin 16) (t : Fin 4096) :
    Cert.KernelIdeal.Spec.ids rho theta f rp (ix2 c t)
      = Cert.KernelIdeal.Spec.take rp (Cert.KernelIdeal.Spec.wrapIdx (Cert.KernelIdeal.Spec.fillEmpty (Cert.KernelIdeal.Spec.segmax rho theta f)))
          (Cert.Column.bin c t) := by
  unfold Cert.KernelIdeal.Spec.ids
  refine shapeCast_apply _ _ (ix2 c t) (Cert.Column.bin c t) ?_
  rw [Shape.rowMajor_val_one, Shape.rowMajor_val_two]
  rfl

theorem rRes_eq_kRes (rho theta f : IVec Cert.KernelIdeal.S500000 32) (rp : FVec F Cert.KernelIdeal.S1025 .f32) (r : FVec F Cert.KernelIdeal.S1024 .f32)
    (hr : ∀ n : Cert.KernelIdeal.S500000.Idx, (0 ≤ (rho n).toInt ∧ (rho n).toInt < 1024) ∧ (0 ≤ (theta n).toInt ∧ (theta n).toInt < 4096)
      ∧ (0 ≤ (f n).toInt ∧ (f n).toInt < 16)) :
    Cert.ReferenceIdeal.Spec.rRes (F := F) rho theta f rp r = Cert.KernelIdeal.Spec.kRes (F := F) rho theta f rp r := by
  funext i
  -- the index in coordinates of their literal types
  obtain ⟨c, q, t, rfl⟩ : ∃ (c : Fin 16) (q : Fin 1024) (t : Fin 4096), i = ix3 c q t := ⟨i 0, i 1, i 2, eq_ix3 i⟩
  have hcol := Cert.Column.column rho theta f hr c t
  -- the column's position word is the same on both sides, and so is its wrap-around
  have hw : Cert.ReferenceIdeal.Spec.widx (Cert.ReferenceIdeal.Spec.ids (Cert.ReferenceIdeal.Spec.occ rho theta f)) (ix3 c (0 : Fin 1) t)
      = Cert.KernelIdeal.Spec.wrapIdx (Cert.KernelIdeal.Spec.fillEmpty (Cert.KernelIdeal.Spec.segmax rho theta f)) (Cert.Column.bin c t) := by
    show Scalar.select (IntOp.cmpi .slt (Cert.ReferenceIdeal.Spec.ids (Cert.ReferenceIdeal.Spec.occ rho theta f) (ix3 c (0 : Fin 1) t)) 0#32)
        (IntOp.addi (Cert.ReferenceIdeal.Spec.ids (Cert.ReferenceIdeal.Spec.occ rho theta f) (ix3 c (0 : Fin 1) t)) 1025#32)
        (Cert.ReferenceIdeal.Spec.ids (Cert.ReferenceIdeal.Spec.occ rho theta f) (ix3 c (0 : Fin 1) t))
      = Scalar.select (IntOp.cmpi .slt (Cert.KernelIdeal.Spec.fillEmpty (Cert.KernelIdeal.Spec.segmax rho theta f) (Cert.Column.bin c t)) 0#32)
        (IntOp.addi (Cert.KernelIdeal.Spec.fillEmpty (Cert.KernelIdeal.Spec.segmax rho theta f) (Cert.Column.bin c t)) 1025#32)
        (Cert.KernelIdeal.Spec.fillEmpty (Cert.KernelIdeal.Spec.segmax rho theta f) (Cert.Column.bin c t))
    rw [hcol]
  show FloatOps.subf
      (broadcastInDim Cert.ReferenceIdeal.S16x1024x4096 ![0, 1, 2] Cert.ReferenceIdeal.Gen.bcast_S16x1x4096_S16x1024x4096_0_1_2
        (Cert.ReferenceIdeal.Spec.gath rp (Cert.ReferenceIdeal.Spec.widx (Cert.ReferenceIdeal.Spec.ids (Cert.ReferenceIdeal.Spec.occ rho theta f)))) (ix3 c q t))
      (broadcastInDim Cert.ReferenceIdeal.S16x1024x4096 ![0, 1, 2] Cert.ReferenceIdeal.Gen.bcast_S1x1024x1_S16x1024x4096_0_1_2
        (shapeCast Cert.ReferenceIdeal.S1x1024x1 r Cert.ReferenceIdeal.Gen.shapeCasts_S1024_S1x1024x1) (ix3 c q t))
    = FloatOps.subf (Cert.KernelIdeal.Spec.ids rho theta f rp (ix2 c t)) (Cert.KernelIdeal.Spec.rcol r (ix3 (0 : Fin 1) q (0 : Fin 1)))
  rw [bcast_col_read, bcast_row_read, r_entry, k_ids_read, k_entry, hw]
  rfl

end Cert.Bridge
-- ==== Proof.lean ====
/-
  The kernel scatters each point's range bin into its (channel, angle) bin by a maximum, the reference writes the
  range bins into a (channel, range, angle) occupancy volume and takes the position of each column's greatest entry;
  with every point's indices in range both name, per column, the greatest occupied range bin (or the position 1024
  of an empty column), read the table `rp` there and subtract `r` along the range axis. The two frames of the
  kernel are its generated frame; the reference's frame is its run with the result dropped; nothing was rewritten
  by the idealization; and the two results are one function of the arguments (`Bridge.rRes_eq_kRes`) under the index
  ranges the precondition states (`Ranges.ranges`).
-/
import proofs.«427130_j11433202942091_3_alg».proof.Defs
import proofs.«427130_j11433202942091_3_alg».proof.Proof.Gen.Kernel
import proofs.«427130_j11433202942091_3_alg».proof.Proof.Gen.Kernel.Frame
import proofs.«427130_j11433202942091_3_alg».proof.Proof.Gen.KernelIdeal
import proofs.«427130_j11433202942091_3_alg».proof.Proof.Gen.KernelIdeal.Frame
import proofs.«427130_j11433202942091_3_alg».proof.Proof.Gen.ReferenceIdeal
import proofs.«427130_j11433202942091_3_alg».proof.Proof.Gen.Pre_finite_inputs
import proofs.«427130_j11433202942091_3_alg».proof.Proof.RRun
import proofs.«427130_j11433202942091_3_alg».proof.Proof.KRun
import proofs.«427130_j11433202942091_3_alg».proof.Proof.PreRanges
import proofs.«427130_j11433202942091_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RRun.run (F := Ideal) m ρ)

/-- Both programs run; the kernel's result is `kRes` of its arguments, the reference's `rRes` of arguments that agree
    with them, and under the index ranges these are one function. -/
theorem algebraic : Cert.algebraic_KernelIdeal_ReferenceIdeal := by
  intro m ρ m' ρ' hpre hagree
  refine ⟨_, Cert.KernelIdeal.KRun.run (F := Ideal) m ρ, ?_⟩
  refine (θ_run Cert.ReferenceIdeal.defs _ _).mono (fun _ h c => ⟨(h c).1.trans ?_, (h c).2⟩)
    (Cert.ReferenceIdeal.RRun.run (F := Ideal) m' ρ')
  rw [(hagree c).1, (hagree c).2.1, (hagree c).2.2.1, (hagree c).2.2.2.1, (hagree c).2.2.2.2]
  exact Cert.Bridge.rRes_eq_kRes _ _ _ _ _ (fun n => Cert.Pre_finite_inputs.Ranges.ranges _ _ _ _ _ (hpre c) n)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
